-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S256x128 .f32) (main_arg3 : FVec F S256 .f32) (main_arg4 : FVec F S256x128 .f32) (main_arg5 : FVec F S2x256 .f32) (main_arg6 : FVec F S2 .f32) (main_arg7 : FVec F S2x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S600000x128 : Shape := ⟨2, ![600000, 128]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S2000 : Shape := ⟨1, ![2000]⟩
abbrev S600000x256 : Shape := ⟨2, ![600000, 256]⟩
abbrev S256x2 : Shape := ⟨2, ![256, 2]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000x1, .f32⟩
  | .hbm, ⟨14, _⟩ => ⟨S_, .f32⟩
  | .hbm, ⟨15, _⟩ => ⟨S100000x1, .f32⟩
  | .hbm, ⟨16, _⟩ => ⟨S600000x1, .i32⟩
  | .hbm, ⟨17, _⟩ => ⟨S100000x1, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S100000x128, .f32⟩
  | .hbm, ⟨29, _⟩ => ⟨S600000x1, .i32⟩
  | .hbm, ⟨30, _⟩ => ⟨S100000x128, .f32⟩
  | .hbm, ⟨31, _⟩ => ⟨S128x256, .f32⟩
  | .hbm, ⟨32, _⟩ => ⟨S128x256, .f32⟩
  | .hbm, ⟨33, _⟩ => ⟨S1x256, .f32⟩
  | .hbm, ⟨34, _⟩ => ⟨S100000x256, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x256, .f32⟩
  | .hbm, ⟨44, _⟩ => ⟨S_, .f32⟩
  | .hbm, ⟨45, _⟩ => ⟨S100000x256, .f32⟩
  | .hbm, ⟨46, _⟩ => ⟨S600000x1, .i32⟩
  | .hbm, ⟨47, _⟩ => ⟨S100000x256, .f32⟩
  | .hbm, ⟨48, _⟩ => ⟨S256x2, .f32⟩
  | .hbm, ⟨49, _⟩ => ⟨S256x2, .f32⟩
  | .hbm, ⟨50, _⟩ => ⟨S1x2, .f32⟩
  | .hbm, ⟨51, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x2, .f32⟩
  | .local _ .vmem, ⟨18, _⟩ => ⟨S256x2, .f32⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S100000x1 : S_.BroadcastsInDim S100000x1 (![] : Fin 0 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  transposes_S2x256_S256x2_1_0 : S2x256.Transposes [1, 0] S256x2
  shapeCasts_S2_S1x2 : S2.ShapeCasts S1x2
  shapeCasts_S2000x256_S2000x256 : S2000x256.ShapeCasts S2000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x256_S2000x256_1_0_0_1_n_n_wf : DotDims.WF S2000x128 S128x256 S2000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2.size a ≤ S256x2.size a
  hwx1_4 : ∀ i : grid1.Coords, EltTy.bits .f32 = 32 ∨ (Rect.block (s := S256x2) S256x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S100000x2.size a
  hwx1_6 : ∀ i : grid1.Coords, EltTy.bits .f32 = 32 ∨ (Rect.block (s := S100000x2) S2000x2.size (cc1_transform_6 i) (hinb1_6 i)).WholeWords (EltTy.packing .f32)

variable [Facts₀]

def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S256x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S2000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S100000 : Shape := ⟨1, ![100000]⟩
abbrev S600000x256 : Shape := ⟨2, ![600000, 256]⟩
abbrev S256x2 : Shape := ⟨2, ![256, 2]⟩
abbrev S100000x2 : Shape := ⟨2, ![100000, 2]⟩
abbrev S1x2 : Shape := ⟨2, ![1, 2]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000x1, .f32⟩
  | .hbm, ⟨27, _⟩ => ⟨S_, .f32⟩
  | .hbm, ⟨28, _⟩ => ⟨S100000x1, .f32⟩
  | .hbm, ⟨29, _⟩ => ⟨S600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S128x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x256, .f32⟩
  | .hbm, ⟨53, _⟩ => ⟨S100000x256, .f32⟩
  | .hbm, ⟨54, _⟩ => ⟨S_, .f32⟩
  | .hbm, ⟨55, _⟩ => ⟨S100000x256, .f32⟩
  | .hbm, ⟨56, _⟩ => ⟨S100000x256, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x256, .f32⟩
  | .hbm, ⟨66, _⟩ => ⟨S_, .f32⟩
  | .hbm, ⟨67, _⟩ => ⟨S100000x256, .f32⟩
  | .hbm, ⟨68, _⟩ => ⟨S600000x1, .i32⟩
  | .hbm, ⟨69, _⟩ => ⟨S100000x256, .f32⟩
  | .hbm, ⟨70, _⟩ => ⟨S_, .f32⟩
  | .hbm, ⟨71, _⟩ => ⟨S600000x1, .f32⟩
  | .hbm, ⟨72, _⟩ => ⟨S_, .f32⟩
  | .hbm, ⟨73, _⟩ => ⟨S100000x1, .f32⟩
  | .hbm, ⟨74, _⟩ => ⟨S600000x1, .i32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x256, .f32⟩
  | .hbm, ⟨80, _⟩ => ⟨S100000x256, .f32⟩
  | .hbm, ⟨81, _⟩ => ⟨S256x2, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | .hbm, ⟨86, _⟩ => ⟨S256x2, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S100000x2, .f32⟩
  | .hbm, ⟨98, _⟩ => ⟨S100000x2, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S100000, .f32⟩
  | .hbm, ⟨103, _⟩ => ⟨S100000, .f32⟩
  | .hbm, ⟨104, _⟩ => ⟨S100000x1, .f32⟩
  | .hbm, ⟨105, _⟩ => ⟨S100000x2, .f32⟩
  | .hbm, ⟨106, _⟩ => ⟨S100000x2, .f32⟩
  | .hbm, ⟨107, _⟩ => ⟨S100000x2, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x1, .f32⟩
  | .hbm, ⟨112, _⟩ => ⟨S100000x2, .f32⟩
  | .hbm, ⟨113, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_cst : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_call3_cst_0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_cst_1 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_v67 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  transposes_S2x256_S256x2_1_0 : S2x256.Transposes [1, 0] S256x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  bcast_S_S100000 : S_.BroadcastsInDim S100000 (![] : Fin 0 → Fin S100000.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x2_S100000x2_1_0_0_1_n_n_wf : DotDims.WF S100000x256 S256x2 S100000x2 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.HostK.lean ====
/-
  The kernel program's host operations around its two pallas_calls, read back: the arrays the first region is entered
  with, and the arrays the second region is entered with given what the first region left. They are the reference's
  own operations on the same arguments — the slices of the edge list, the wrapped source indices, the gathers and
  scatter-adds, the transposed weights — so each is the reference's stage of the same name, by unfolding both.
  Stated for any float instance: nothing here looks inside a float operation.
-/
import proofs.«176304_j60352880443979_1_alg».proof.Proof.Gen.KernelIdeal.Frame
import proofs.«176304_j60352880443979_1_alg».proof.Proof.RefReadP
import Idealize.ShloMosaic.Lib.StableHlo.Run
import Idealize.ShloMosaic.Lib.Tactic
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]
variable (m : (ℓ : Loc nD τ sig) → Buf (Elt F) ℓ) (ρ : Dev nD → PrngReg)

/-! ## Before the first region -/

/-- The source indices, as sliced out of the edge list. -/
theorem W1_v1 (c : Dev nD) : W1 m ρ c (Proc.devRef .tc main_v1) = Cert.ReferenceIdeal.ReadP.val_main_v1 (F := F) (m ((c : Thread nD τ).loc main_arg1)) := by
  show StableHlo.after hostOps0 (W0 m ρ c) (Proc.devRef .tc main_v1) = _
  after_results <;> rfl

/-- The destination indices. -/
theorem W1_v3 (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results <;> rfl

/-- The neighbour counts: ones scatter-added at the destinations. -/
theorem W1_v7 (c : Dev nD) : W1 m ρ c (Proc.devRef .tc main_v7) = Cert.ReferenceIdeal.ReadP.val_main_v17 (F := F) (m ((c : Thread nD τ).loc main_arg1)) := by
  show StableHlo.after hostOps0 (W0 m ρ c) (Proc.devRef .tc main_v7) = _
  after_results <;> rfl

set_option maxHeartbeats 4000000 in
/-- The neighbour sums of the features: the rows gathered at the sources, scatter-added at the destinations. -/
theorem W1_v17 (c : Dev nD) : W1 m ρ c (Proc.devRef .tc main_v17)
    = Cert.ReferenceIdeal.ReadP.val_main_v13 (F := F) (m ((c : Thread nD τ).loc main_arg0)) (m ((c : Thread nD τ).loc main_arg1)) := by
  show StableHlo.after hostOps0 (W0 m ρ c) (Proc.devRef .tc main_v17) = _
  after_results <;> rfl

/-- The features themselves: no host operation writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

/-- The first layer's two weight matrices, transposed. -/
theorem W1_v18 (c : Dev nD) : W1 m ρ c (Proc.devRef .tc main_v18) = Cert.ReferenceIdeal.ReadP.val_main_v22 (F := F) (m ((c : Thread nD τ).loc main_arg2)) := by
  show StableHlo.after hostOps0 (W0 m ρ c) (Proc.devRef .tc main_v18) = _
  after_results <;> rfl
theorem W1_v19 (c : Dev nD) : W1 m ρ c (Proc.devRef .tc main_v19) = Cert.ReferenceIdeal.ReadP.val_main_v27 (F := F) (m ((c : Thread nD τ).loc main_arg4)) := by
  show StableHlo.after hostOps0 (W0 m ρ c) (Proc.devRef .tc main_v19) = _
  after_results <;> rfl

/-- The first layer's bias as a row: the kernel reshapes [256] to [1,256]. -/
theorem W1_v20 (c : Dev nD) : W1 m ρ c (Proc.devRef .tc main_v20) = shapeCast S1x256 (m ((c : Thread nD τ).loc main_arg3)) shapeCasts_S256_S1x256 := by
  show StableHlo.after hostOps0 (W0 m ρ c) (Proc.devRef .tc main_v20) = _
  after_results <;> rfl

/-! ## Between the regions -/

/-- The second neighbour sums, of whatever array `H` the first region left as its result: `H`'s rows gathered at the
    sources and scatter-added at the destinations, the indices as the first stretch left them. -/
theorem W3_v31_of (c : Dev nD) (x1 : (⟨Cert.ReferenceIdeal.S2x600000, .i32⟩ : BufTy).Contents (Elt F))
    (H : (⟨Cert.ReferenceIdeal.S100000x256, .f32⟩ : BufTy).Contents (Elt F))
    (h1 : W2 m ρ c (Proc.devRef .tc main_v1) = Cert.ReferenceIdeal.ReadP.val_main_v1 (F := F) x1)
    (h3 : W2 m ρ c (Proc.devRef .tc main_v3) = Cert.ReferenceIdeal.ReadP.val_main_v3 (F := F) x1)
    (h21 : W2 m ρ c (Proc.devRef .tc main_v21) = H) :
    W3 m ρ c (Proc.devRef .tc main_v31)
      = Host.scatterAdd Cert.ReferenceIdeal.scatter_S100000x256_S600000x1_S600000x256_1_0_0_1 (Cert.ReferenceIdeal.ReadP.val_main_v43 (F := F))
          (Cert.ReferenceIdeal.ReadP.val_main_v44 (F := F) x1)
          (Host.gather Cert.ReferenceIdeal.gather_S100000x256_S600000x1_S600000x256_1_0_n_n_0_1_1256 H (Cert.ReferenceIdeal.ReadP.val_main_v41 (F := F) x1)) := by
  show StableHlo.after hostOps1 (W2 m ρ c) (Proc.devRef .tc main_v31) = _
  after_results
  rw [h1, h3, h21]
  rfl

/-- The second layer's weights and bias are arguments: the first stretch leaves them as launched. -/
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

/-! ## Across the first region: a buffer that is none of its arrays, and an array it only reads, keep their contents -/

theorem W2_v1 (c : Dev nD) : W2 m ρ c (Proc.devRef .tc main_v1) = Cert.ReferenceIdeal.ReadP.val_main_v1 (F := F) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.ReadP.val_main_v3 (F := F) (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
/-- The counts are the first region's window 1, an input: the region leaves the array as it found it. -/
theorem W2_v7 (c : Dev nD) : W2 m ρ c (Proc.devRef .tc main_v7) = Cert.ReferenceIdeal.ReadP.val_main_v17 (F := F) (m ((c : Thread nD τ).loc main_arg1)) :=
  (W2_arr m ρ c 1).trans ((((dat0 (V1 m ρ) c).arrAt_in 1 rfl _).trans (A_eq0 (V1 m ρ) c 1)).trans (W1_v7 m ρ c))

/-! ## Between the regions, continued -/

/-- The second stretch writes neither the counts nor the first region's result. -/
theorem W3_v7 (c : Dev nD) : W3 m ρ c (Proc.devRef .tc main_v7) = W2 m ρ c (Proc.devRef .tc main_v7) := by
  show StableHlo.after hostOps1 (W2 m ρ c) (Proc.devRef .tc main_v7) = _
  after_results <;> rfl
theorem W3_v21 (c : Dev nD) : W3 m ρ c (Proc.devRef .tc main_v21) = W2 m ρ c (Proc.devRef .tc main_v21) := by
  show StableHlo.after hostOps1 (W2 m ρ c) (Proc.devRef .tc main_v21) = _
  after_results <;> rfl
/-- The second layer's two weight matrices, transposed. -/
theorem W3_v32 (c : Dev nD) : W3 m ρ c (Proc.devRef .tc main_v32) = Cert.ReferenceIdeal.ReadP.val_main_v54 (F := F) (m ((c : Thread nD τ).loc main_arg5)) := by
  show StableHlo.after hostOps1 (W2 m ρ c) (Proc.devRef .tc main_v32) = _
  after_results
  rw [W2_arg5 m ρ c]
  rfl
theorem W3_v33 (c : Dev nD) : W3 m ρ c (Proc.devRef .tc main_v33) = Cert.ReferenceIdeal.ReadP.val_main_v59 (F := F) (m ((c : Thread nD τ).loc main_arg7)) := by
  show StableHlo.after hostOps1 (W2 m ρ c) (Proc.devRef .tc main_v33) = _
  after_results
  rw [W2_arg7 m ρ c]
  rfl
/-- The second layer's bias as a row: the kernel reshapes [2] to [1,2]. -/
theorem W3_v34 (c : Dev nD) : W3 m ρ c (Proc.devRef .tc main_v34) = shapeCast S1x2 (m ((c : Thread nD τ).loc main_arg6)) shapeCasts_S2_S1x2 := by
  show StableHlo.after hostOps1 (W2 m ρ c) (Proc.devRef .tc main_v34) = _
  after_results
  rw [W2_arg6 m ρ c]
  rfl

/-! ## A bias as a row: the kernel's reshape [n] → [1,n] is the reference's broadcast of [n] into [1,n] -/

open Idealize.ShloMosaic.ValueIdx in
theorem bias1_row (x : (⟨Cert.ReferenceIdeal.S256, .f32⟩ : BufTy).Contents (Elt F)) :
    shapeCast S1x256 x shapeCasts_S256_S1x256 = Cert.ReferenceIdeal.ReadP.val_main_v24 (F := F) x := by
  funext i
  obtain ⟨u, j, rfl⟩ : ∃ (u : Fin 1) (j : Fin 256), i = ix2 u j := ⟨i 0, i 1, eq_ix2 i⟩
  rw [Cert.ReferenceIdeal.ReadP.val_main_v24_apply]
  exact (shapeCast_a_1a_apply x _ u j).trans (congrArg x (funext fun a => match a with | ⟨0, _⟩ => rfl))

open Idealize.ShloMosaic.ValueIdx in
theorem bias2_row (x : (⟨Cert.ReferenceIdeal.S2, .f32⟩ : BufTy).Contents (Elt F)) :
    shapeCast S1x2 x shapeCasts_S2_S1x2 = Cert.ReferenceIdeal.ReadP.val_main_v56 (F := F) x := by
  funext i
  obtain ⟨u, j, rfl⟩ : ∃ (u : Fin 1) (j : Fin 2), i = ix2 u j := ⟨i 0, i 1, eq_ix2 i⟩
  rw [Cert.ReferenceIdeal.ReadP.val_main_v56_apply]
  exact (shapeCast_a_1a_apply x _ u j).trans (congrArg x (funext fun a => match a with | ⟨0, _⟩ => rfl))

end Cert.KernelIdeal.Host

end
-- ==== Proof.Spec.lean ====
/-
  The mathematics of one SAGE layer, row by row, on the extended reals.

  A node's row of the layer's output depends on that node's row of the neighbour sum `s`, its neighbour
  count, its own feature row, and the two weight matrices and the bias:
    a_k   = s_k / max(count, 1)                      (mean over the neighbours)
    o_j   = (Σ_k a_k · wl_{k j} + Σ_k x_k · wr_{k j}) + b_j
    y_j   = o_j / max(sqrt(Σ_j' o_j'²), ε)            (L2 normalisation)
  followed by max(y_j, 0) in the first layer and by the logarithm of the softmax of the row in the second.
  Everything here is stated over `EReal` with the operations the ideal instance gives them, for an array of
  any number of rows `R`: the same function describes a block of 2000 rows and the whole array of 100000.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The literals of both programs, kept as their words: 1, the normalisation's ε, 0 and -∞. -/
abbrev one : EReal := Ideal.ofBits .f32 0x3F800000#32
abbrev eps : EReal := Ideal.ofBits .f32 0x2B8CBCCC#32
abbrev zero : EReal := Ideal.ofBits .f32 0x00000000#32
abbrev negInf : EReal := Ideal.ofBits .f32 0xFF800000#32

/-- The mean of a node's neighbours: the row of sums divided by the count, a count below one read as one. -/
def meanRow {D : Nat} (srow : Fin D → EReal) (cn : EReal) : Fin D → EReal :=
  fun k => Ideal.div (srow k) (max cn one)

/-- The two linear maps and the bias, the bias added last. -/
def linRow {D O : Nat} (a x : Fin D → EReal) (wl wr : Fin D → Fin O → EReal) (b : Fin O → EReal) : Fin O → EReal :=
  fun j => (∑ k : Fin D, a k * wl k j + ∑ k : Fin D, x k * wr k j) + b j

/-- The same with the bias added between the two products. -/
def linRowRef {D O : Nat} (a x : Fin D → EReal) (wl wr : Fin D → Fin O → EReal) (b : Fin O → EReal) : Fin O → EReal :=
  fun j => (∑ k : Fin D, a k * wl k j + b j) + ∑ k : Fin D, x k * wr k j

/-- Addition of extended reals is commutative and associative, so the two orders agree. -/
theorem linRowRef_eq {D O : Nat} (a x : Fin D → EReal) (wl wr : Fin D → Fin O → EReal) (b : Fin O → EReal) :
    linRowRef a x wl wr b = linRow a x wl wr b := by
  funext j
  unfold linRowRef linRow
  exact add_right_comm _ _ _

/-- A row divided by its Euclidean norm, a norm below ε read as ε. -/
def normRow {O : Nat} (o : Fin O → EReal) : Fin O → EReal :=
  fun j => Ideal.div (o j) (max (Ideal.sqrt (∑ j' : Fin O, o j' * o j')) eps)

/-- The positive part. -/
def reluRow {O : Nat} (y : Fin O → EReal) : Fin O → EReal := fun j => max (y j) zero

/-- The largest entry of a row, folded from -∞. -/
def rowMax {O : Nat} (z : Fin O → EReal) : EReal := (Finset.univ : Finset (Fin O)).fold max negInf z

/-- The logarithm of the softmax of a row. -/
def logSoftmaxRow {O : Nat} (z : Fin O → EReal) : Fin O → EReal :=
  fun j => (z j - rowMax z) - Ideal.log (∑ j' : Fin O, Ideal.exp (z j' - rowMax z))

/-- One row of the first layer. -/
def layer1Row {D O : Nat} (srow xrow : Fin D → EReal) (cn : EReal) (wl wr : Fin D → Fin O → EReal) (b : Fin O → EReal) :
    Fin O → EReal :=
  reluRow (normRow (linRow (meanRow srow cn) xrow wl wr b))

/-- One row of the second layer. -/
def layer2Row {D O : Nat} (srow xrow : Fin D → EReal) (cn : EReal) (wl wr : Fin D → Fin O → EReal) (b : Fin O → EReal) :
    Fin O → EReal :=
  logSoftmaxRow (normRow (linRow (meanRow srow cn) xrow wl wr b))

/-- An array of `R` rows and `D` columns. -/
abbrev Arr (R D : Nat) : Type := (⟨2, ![R, D]⟩ : Shape).Idx → EReal

/-- Row `n` of an array, as a function of the column. -/
abbrev rowOf {R D : Nat} (x : Arr R D) (n : Fin R) : Fin D → EReal := fun k => x (ix2 n k)

/-- A matrix as a function of its two coordinates. -/
abbrev mat {D O : Nat} (w : Arr D O) : Fin D → Fin O → EReal := fun k j => w (ix2 k j)

/-- The row and the column of an index. -/
abbrev rowIx {R O : Nat} (i : (⟨2, ![R, O]⟩ : Shape).Idx) : Fin R := ⟨(i 0).val, (i 0).isLt⟩
abbrev colIx {R O : Nat} (i : (⟨2, ![R, O]⟩ : Shape).Idx) : Fin O := ⟨(i 1).val, (i 1).isLt⟩

/-- The first layer on arrays of `R` rows: every row by `layer1Row`, the count a column, the bias a row. -/
def layer1 {R D O : Nat} (s : Arr R D) (cnt : Arr R 1) (x : Arr R D) (wl wr : Arr D O) (b : Arr 1 O) : Arr R O :=
  fun i => layer1Row (rowOf s (rowIx i)) (rowOf x (rowIx i)) (cnt (ix2 (rowIx i) 0)) (mat wl) (mat wr) (rowOf b 0) (colIx i)

/-- The second layer on arrays of `R` rows. -/
def layer2 {R D O : Nat} (s : Arr R D) (cnt : Arr R 1) (x : Arr R D) (wl wr : Arr D O) (b : Arr 1 O) : Arr R O :=
  fun i => layer2Row (rowOf s (rowIx i)) (rowOf x (rowIx i)) (cnt (ix2 (rowIx i) 0)) (mat wl) (mat wr) (rowOf b 0) (colIx i)

/-- Read at explicit coordinates. -/
theorem layer1_ix2 {R D O : Nat} (s : Arr R D) (cnt : Arr R 1) (x : Arr R D) (wl wr : Arr D O) (b : Arr 1 O) (n : Fin R) (j : Fin O) :
    layer1 s cnt x wl wr b (ix2 n j) = layer1Row (rowOf s n) (rowOf x n) (cnt (ix2 n 0)) (mat wl) (mat wr) (rowOf b 0) j := rfl

theorem layer2_ix2 {R D O : Nat} (s : Arr R D) (cnt : Arr R 1) (x : Arr R D) (wl wr : Arr D O) (b : Arr 1 O) (n : Fin R) (j : Fin O) :
    layer2 s cnt x wl wr b (ix2 n j) = layer2Row (rowOf s n) (rowOf x n) (cnt (ix2 n 0)) (mat wl) (mat wr) (rowOf b 0) j := rfl

end Cert.Sage

end
-- ==== Proof.Region0.lean ====
/-
  Region 0 of the kernel: what the pallas_call leaves in its result array, as the first SAGE layer of the
  arrays it reads. A grid point t works on rows 2000·t … 2000·t + 1999: the body's stored value at row p of the
  block is `Sage.layer1Row` of row p of the point's input blocks, the blocks are rows of the arrays, and the fifty
  blocks tile the result array.
-/
import proofs.«176304_j60352880443979_1_alg».proof.Proof.Gen.KernelIdeal.Frame
import proofs.«176304_j60352880443979_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-! ## The layout operations of the body, read at explicit coordinates -/

/-- A column of 2000 entries spread over 128 lanes: every lane of row `p` holds the column's entry of row `p`. -/
theorem col_to_128 {α : Type} (v : S2000x1.Idx → α) (h : S2000x1.Broadcasts S2000x128) (p : Fin 2000) (k : Fin 128) :
    broadcastTo S2000x128 v h (ix2 p k) = v (ix2 p 0) :=
  broadcastTo_apply v h (ix2 p k) (ix2 p 0) (fun a => match a with
    | ⟨0, _⟩ => rfl
    | ⟨1, _⟩ => rfl)

/-- The same over 256 lanes. -/
theorem col_to_256 {α : Type} (v : S2000x1.Idx → α) (h : S2000x1.Broadcasts S2000x256) (p : Fin 2000) (q : Fin 256) :
    broadcastTo S2000x256 v h (ix2 p q) = v (ix2 p 0) :=
  broadcastTo_apply v h (ix2 p q) (ix2 p 0) (fun a => match a with
    | ⟨0, _⟩ => rfl
    | ⟨1, _⟩ => rfl)

/-- One row of 256 entries repeated down 2000 rows: row `p`, lane `q` holds the row's entry `q`. -/
theorem row_to_2000 {α : Type} (v : S1x256.Idx → α) (h : S1x256.Broadcasts S2000x256) (p : Fin 2000) (q : Fin 256) :
    broadcastTo S2000x256 v h (ix2 p q) = v (ix2 0 q) :=
  broadcastTo_apply v h (ix2 p q) (ix2 0 q) (fun a => match a with
    | ⟨0, _⟩ => rfl
    | ⟨1, _⟩ => rfl)

/-- A vector of 2000 entries viewed as a column: row `p` of the column is entry `p` (same row-major position). -/
theorem vec_as_col {α : Type} (v : S2000.Idx → α) (h : S2000.ShapeCasts S2000x1) (p : Fin 2000) :
    shapeCast S2000x1 v h (ix2 p 0) = v (ix1 p) :=
  shapeCast_apply v h (ix2 p 0) (ix1 p) (by
    rw [Shape.rowMajor_val_one, Shape.rowMajor_val_two]
    show p.val = p.val * 1 + 0
    omega)

/-- The sum along the lanes: entry `p` of the reduced vector is the sum of row `p`. -/
theorem lane_sum (v : FVec Ideal S2000x256 .f32) (h : S2000x256.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ q : Fin 256, v (ix2 p q) := by
  refine (Ideal.multiReduction_add_single v 0x00000000#32 h hφ hacc (ix1 p)).trans ?_
  refine Finset.sum_congr rfl fun q _ => congrArg v ?_
  funext a
  apply Fin.ext
  match a with
  | ⟨0, _⟩ => rfl
  | ⟨1, _⟩ => rfl

/-! ## The product of a block of rows with a weight matrix, read at explicit coordinates -/

/-- The left operand's index at output index `i` and contraction index `c`: its row is `i`'s row, -/
theorem dot_lhs_row (i : S2000x256.Idx) (c : dot_S2000x128_S128x256_S2000x256_1_0_0_1_n_n.contr.Idx) :
    (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- its column the contraction index; -/
theorem dot_lhs_col (i : S2000x256.Idx) (c : dot_S2000x128_S128x256_S2000x256_1_0_0_1_n_n.contr.Idx) :
    (dot_S2000x128_S128x256_S2000x256_1_0_0_1_n_n.lhsIdx i c 1).val = (c ⟨0, by decide⟩).val :=
  dot_S2000x128_S128x256_S2000x256_1_0_0_1_n_n.lhsIdx_val_of_single rfl i c
/-- the right operand's row is the contraction index, -/
theorem dot_rhs_row (i : S2000x256.Idx) (c : dot_S2000x128_S128x256_S2000x256_1_0_0_1_n_n.contr.Idx) :
    (dot_S2000x128_S128x256_S2000x256_1_0_0_1_n_n.rhsIdx i c 0).val = (c ⟨0, by decide⟩).val :=
  dot_S2000x128_S128x256_S2000x256_1_0_0_1_n_n.rhsIdx_val_of_single rfl i c
/-- and its column `i`'s column. -/
theorem dot_rhs_col (i : S2000x256.Idx) (c : dot_S2000x128_S128x256_S2000x256_1_0_0_1_n_n.contr.Idx) :
    (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product into a zero accumulator, at row `p` and column `q`: the sum over the 128 shared coordinates of
    the left operand's row `p` against the right operand's column `q`. -/
theorem rows_times_weights (a : FVec Ideal S2000x128 .bf16) (b : FVec Ideal S128x256 .bf16) (p : Fin 2000) (q : Fin 256) :
    matmul (F := Ideal) dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun x => Fin.ext (by
    match x with
    | ⟨0, _⟩ => exact dot_lhs_row _ _
    | ⟨1, _⟩ => exact (dot_lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun x => Fin.ext (by
    match x with
    | ⟨0, _⟩ => exact (dot_rhs_row _ _).trans hk
    | ⟨1, _⟩ => exact dot_rhs_col _ _)
  rw [el, er]

/-! ## The body's value, in two stages -/

/-- The square root is taken entry by entry. -/
theorem sqrt_apply {s : Shape} {φ : FTy} (v : FVec Ideal s φ) (i : s.Idx) : sqrt v i = Ideal.sqrt (v i) := rfl

/-- The body's value before the normalisation: the mean of the neighbours times the left weights, plus the node's own
    features times the right weights, plus the bias. -/
def lin (v0 : Vec Ideal S2000x1 .f32) (v4 v9 : Vec Ideal S2000x128 .f32) (vl vr : Vec Ideal S128x256 .f32) (vb : Vec Ideal S1x256 .f32) :
    FVec Ideal S2000x256 .f32 :=
  addf
    (addf
      (matmul dot_S2000x128_S128x256_S2000x256_1_0_0_1_n_n none
        (truncf .bf16
          (divf (shapeCast S2000x128 v4 shapeCasts_S2000x128_S2000x128)
            (broadcastTo S2000x128
              (maximumf (shapeCast S2000x1 v0 shapeCasts_S2000x1_S2000x1) (broadcast S2000x1 (Scalar.ofBits .f32 0x3F800000#32)))
              broadcasts_S2000x1_S2000x128))
          bitsLt_bf16_f32)
        (truncf .bf16 (shapeCast S128x256 vl shapeCasts_S128x256_S128x256) bitsLt_bf16_f32)
        (constant S2000x256 .f32 0x00000000#32))
      (matmul dot_S2000x128_S128x256_S2000x256_1_0_0_1_n_n none
        (truncf .bf16 v9 bitsLt_bf16_f32)
        (truncf .bf16 (shapeCast S128x256 vr shapeCasts_S128x256_S128x256) bitsLt_bf16_f32)
        (constant S2000x256 .f32 0x00000000#32)))
    (broadcastTo S2000x256 (shapeCast S1x256 vb shapeCasts_S1x256_S1x256) broadcasts_S1x256_S2000x256)

/-- The stored value is that value divided, row by row, by the larger of its row's Euclidean norm and ε, then the positive part. -/
theorem pay_eq (v0 : Vec Ideal S2000x1 .f32) (v4 v9 : Vec Ideal S2000x128 .f32) (vl vr : Vec Ideal S128x256 .f32) (vb : Vec Ideal S1x256 .f32) :
    k0_pay1 (F := Ideal) v0 v4 v9 vl vr vb
      = maximumf
          (divf (lin v0 v4 v9 vl vr vb)
            (broadcastTo S2000x256
              (maximumf
                (sqrt (shapeCast S2000x1
                  (multiReduction (F := Ideal) .add [1] S2000 (mulf (lin v0 v4 v9 vl vr vb) (lin v0 v4 v9 vl vr vb)) 0x00000000#32 reduces_S2000x256_S2000 (.inl rfl) rfl)
                  shapeCasts_S2000_S2000x1))
                (broadcast S2000x1 (Scalar.ofBits .f32 0x2B8CBCCC#32)))
              broadcasts_S2000x1_S2000x256))
          (broadcast S2000x256 (Scalar.ofBits .f32 0x00000000#32)) := rfl

/-- The value before the normalisation at row `p`, column `q`: the linear part of the layer on row `p` of the blocks. -/
theorem lin_apply (v0 : Vec Ideal S2000x1 .f32) (v4 v9 : Vec Ideal S2000x128 .f32) (vl vr : Vec Ideal S128x256 .f32) (vb : Vec Ideal S1x256 .f32) (p : Fin 2000) (q : Fin 256) :
    lin v0 v4 v9 vl vr vb (ix2 p q)
      = Cert.Sage.linRow (Cert.Sage.meanRow (Cert.Sage.rowOf (R := 2000) (D := 128) v4 p) (v0 (ix2 p 0))) (Cert.Sage.rowOf (R := 2000) (D := 128) v9 p)
          (Cert.Sage.mat (D := 128) (O := 256) vl) (Cert.Sage.mat (D := 128) (O := 256) vr) (Cert.Sage.rowOf (R := 1) (D := 256) vb 0) q := by
  unfold lin
  simp only [addf_apply, rows_times_weights, row_to_2000, shapeCast_self, truncf_apply, divf_apply, col_to_128, maximumf_apply, broadcast_apply]
  rfl

/-- The sum of the squares along the lanes, as the body takes it: entry `p` is the sum of the squares of row `p`. -/
theorem sq_sum_apply (o : FVec Ideal S2000x256 .f32) (p : Fin 2000) :
    multiReduction (F := Ideal) .add [1] S2000 (mulf o o) 0x00000000#32 reduces_S2000x256_S2000 (.inl rfl) rfl (ix1 p)
      = ∑ q : Fin 256, o (ix2 p q) * o (ix2 p q) :=
  lane_sum (mulf o o) reduces_S2000x256_S2000 (.inl rfl) rfl p

/-- The body's stored value at row `p`, column `q` of the block: one row of the layer, of row `p` of the loaded blocks. -/
theorem pay_apply (v0 : Vec Ideal S2000x1 .f32) (v4 v9 : Vec Ideal S2000x128 .f32) (vl vr : Vec Ideal S128x256 .f32) (vb : Vec Ideal S1x256 .f32) (p : Fin 2000) (q : Fin 256) :
    k0_pay1 (F := Ideal) v0 v4 v9 vl vr vb (ix2 p q)
      = Cert.Sage.layer1Row (Cert.Sage.rowOf (R := 2000) (D := 128) v4 p) (Cert.Sage.rowOf (R := 2000) (D := 128) v9 p) (v0 (ix2 p 0))
          (Cert.Sage.mat (D := 128) (O := 256) vl) (Cert.Sage.mat (D := 128) (O := 256) vr) (Cert.Sage.rowOf (R := 1) (D := 256) vb 0) q := by
  rw [pay_eq]
  simp only [maximumf_apply, divf_apply, broadcast_apply, col_to_256, sqrt_apply, vec_as_col]
  rw [sq_sum_apply]
  simp only [lin_apply]
  rfl

variable (V : (c : Dev nD) → (b : Ref sig .tc) → Buf (Elt Ideal) ((c : Thread nD τ).loc b))

/-! ## From the blocks to the arrays -/

/-- The zero offsets of a whole-buffer access, as a constant function. -/
theorem hz : (![0, 0] : Fin 2 → Nat) = fun _ => 0 := funext fun a => by fin_cases a <;> rfl

/-- The index maps of the windows that move with the grid, at every point: block `t` along the rows, block 0 along the
    columns (the neighbour sums, the counts, the features and the result). -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_6.index t (0 : Fin 2) = t.val ∧ win0_6.index t (1 : Fin 2) = 0) :=
  (by decide +kernel : ∀ t : Fin grid0.N, _)

/-- The index maps of the windows that hold a whole array, at every point: block 0 on both axes (the two weight
    matrices and the bias). -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Row `p` of block `t` is row `2000·t + p` of an array of 100000 rows. -/
theorem row_lt (t : Fin cfg0.N) (p : Fin 2000) : 2000 * t.val + p.val < 100000 := by
  have := t.isLt; have : cfg0.N = 50 := N_0; have := p.isLt; omega

/-- The row of the arrays that row `p` of point `t`'s blocks is. -/
abbrev rowAt (t : Fin cfg0.N) (p : Fin 2000) : Fin 100000 := ⟨2000 * t.val + p.val, row_lt t p⟩

/-- The block of neighbour sums at point `t` is rows `2000·t … 2000·t + 1999` of the array of neighbour sums. -/
theorem sum_blk_apply (c : Dev nD) (t : Fin cfg0.N) (p : Fin 2000) (k : Fin 128) :
    (iblk0 (F := Ideal) V c 0 t : Vec Ideal S2000x128 .f32) (ix2 p k) = (V c main_v17 : S100000x128.Idx → EReal) (ix2 (rowAt t p) k) := by
  obtain ⟨⟨e0, e1⟩, -⟩ := idx_moving t
  unfold iblk0
  rw [View.read_apply]
  show V c main_v17 _ = V c main_v17 _
  congr 1
  funext a
  apply Fin.ext
  match a with
  | ⟨0, _⟩ => show win0_0.index t 0 * 2000 + 1 * p.val = 2000 * t.val + p.val; rw [e0]; omega
  | ⟨1, _⟩ => show win0_0.index t 1 * 128 + 1 * k.val = k.val; rw [e1]; omega

/-- The block of counts at point `t` is the same rows of the column of counts. -/
theorem cnt_blk_apply (c : Dev nD) (t : Fin cfg0.N) (p : Fin 2000) :
    (iblk0 (F := Ideal) V c 1 t : Vec Ideal S2000x1 .f32) (ix2 p 0) = (V c main_v7 : S100000x1.Idx → EReal) (ix2 (rowAt t p) 0) := by
  obtain ⟨-, ⟨e0, e1⟩, -⟩ := idx_moving t
  unfold iblk0
  rw [View.read_apply]
  show V c main_v7 _ = V c main_v7 _
  congr 1
  funext a
  apply Fin.ext
  match a with
  | ⟨0, _⟩ => show win0_1.index t 0 * 2000 + 1 * p.val = 2000 * t.val + p.val; rw [e0]; omega
  | ⟨1, _⟩ => show win0_1.index t 1 * 1 + 1 * 0 = 0; rw [e1]

/-- The block of features at point `t` is the same rows of the array of features. -/
theorem feat_blk_apply (c : Dev nD) (t : Fin cfg0.N) (p : Fin 2000) (k : Fin 128) :
    (iblk0 (F := Ideal) V c 2 t : Vec Ideal S2000x128 .f32) (ix2 p k) = (V c main_arg0 : S100000x128.Idx → EReal) (ix2 (rowAt t p) k) := by
  obtain ⟨-, -, ⟨e0, e1⟩, -⟩ := idx_moving t
  unfold iblk0
  rw [View.read_apply]
  show V c main_arg0 _ = V c main_arg0 _
  congr 1
  funext a
  apply Fin.ext
  match a with
  | ⟨0, _⟩ => show win0_2.index t 0 * 2000 + 1 * p.val = 2000 * t.val + p.val; rw [e0]; omega
  | ⟨1, _⟩ => show win0_2.index t 1 * 128 + 1 * k.val = k.val; rw [e1]; omega

/-- The block of left weights at any point is the whole matrix of left weights. -/
theorem wl_blk_apply (c : Dev nD) (t : Fin cfg0.N) (k : Fin 128) (q : Fin 256) :
    (iblk0 (F := Ideal) V c 3 t : Vec Ideal S128x256 .f32) (ix2 k q) = (V c main_v18 : S128x256.Idx → EReal) (ix2 k q) := by
  obtain ⟨⟨e0, e1⟩, -⟩ := idx_fixed t
  unfold iblk0
  rw [View.read_apply]
  show V c main_v18 _ = V c main_v18 _
  congr 1
  funext a
  apply Fin.ext
  match a with
  | ⟨0, _⟩ => show win0_3.index t 0 * 128 + 1 * k.val = k.val; rw [e0]; omega
  | ⟨1, _⟩ => show win0_3.index t 1 * 256 + 1 * q.val = q.val; rw [e1]; omega

/-- The block of right weights at any point is the whole matrix of right weights. -/
theorem wr_blk_apply (c : Dev nD) (t : Fin cfg0.N) (k : Fin 128) (q : Fin 256) :
    (iblk0 (F := Ideal) V c 4 t : Vec Ideal S128x256 .f32) (ix2 k q) = (V c main_v19 : S128x256.Idx → EReal) (ix2 k q) := by
  obtain ⟨-, ⟨e0, e1⟩, -⟩ := idx_fixed t
  unfold iblk0
  rw [View.read_apply]
  show V c main_v19 _ = V c main_v19 _
  congr 1
  funext a
  apply Fin.ext
  match a with
  | ⟨0, _⟩ => show win0_4.index t 0 * 128 + 1 * k.val = k.val; rw [e0]; omega
  | ⟨1, _⟩ => show win0_4.index t 1 * 256 + 1 * q.val = q.val; rw [e1]; omega

/-- The block of the bias at any point is the whole bias row. -/
theorem bias_blk_apply (c : Dev nD) (t : Fin cfg0.N) (q : Fin 256) :
    (iblk0 (F := Ideal) V c 5 t : Vec Ideal S1x256 .f32) (ix2 0 q) = (V c main_v20 : S1x256.Idx → EReal) (ix2 0 q) := by
  obtain ⟨-, -, ⟨e0, e1⟩⟩ := idx_fixed t
  unfold iblk0
  rw [View.read_apply]
  show V c main_v20 _ = V c main_v20 _
  congr 1
  funext a
  apply Fin.ext
  match a with
  | ⟨0, _⟩ => show win0_5.index t 0 * 1 + 1 * 0 = 0; rw [e0]
  | ⟨1, _⟩ => show win0_5.index t 1 * 256 + 1 * q.val = q.val; rw [e1]; omega

/-- Row `p`, column `q` of the result's block at point `t` is row `2000·t + p`, column `q` of the result array. -/
theorem out_emb (t : Fin cfg0.N) (p : Fin 2000) (q : Fin 256) :
    (((cfg0.win 6).blk t).view.emb (ix2 p q) : S100000x256.Idx) = ix2 (rowAt t p) q := by
  obtain ⟨-, -, -, ⟨e0, e1⟩⟩ := idx_moving t
  funext a
  apply Fin.ext
  match a with
  | ⟨0, _⟩ => show win0_6.index t 0 * 2000 + 1 * p.val = 2000 * t.val + p.val; rw [e0]; omega
  | ⟨1, _⟩ => show win0_6.index t 1 * 256 + 1 * q.val = q.val; rw [e1]; omega

/-- A row of the layer depends only on the rows, the count, the matrices and the bias it is given. -/
theorem layer1Row_congr {s s' x x' : Fin 128 → EReal} {cn cn' : EReal} {wl wl' wr wr' : Fin 128 → Fin 256 → EReal} {b b' : Fin 256 → EReal}
    (hs : s = s') (hx : x = x') (hc : cn = cn') (hl : wl = wl') (hr : wr = wr') (hb : b = b') :
    Cert.Sage.layer1Row s x cn wl wr b = Cert.Sage.layer1Row s' x' cn' wl' wr' b' := by
  rw [hs, hx, hc, hl, hr, hb]

/-- WHAT POINT `t` WRITES BACK: block `t` of the layer of the arrays as the region finds them. -/
theorem flushed_eq (c : Dev nD) (t : Fin cfg0.N) :
    (dat0 (F := Ideal) V c).flushed 6 t
      = ((cfg0.win 6).blk t).view.read (Elt Ideal)
          (Cert.Sage.layer1 (R := 100000) (D := 128) (O := 256) (V c main_v17) (V c main_v7) (V c main_arg0) (V c main_v18) (V c main_v19) (V c main_v20)) := by
  show (cfg0.win 6).cut (grid0.coords t) ((dat0 V c).after 6 t) = _
  rw [after0_6]
  unfold out0_6
  rw [View.canon_unit_zero hz]
  simp only [View.ld_unit_zero (S := S2000x1) hz, View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk0 V c 1 t) (iblk0 V c 0 t) (iblk0 V c 2 t) (iblk0 V c 3 t) (iblk0 V c 4 t) (iblk0 V c 5 t) (ix2 p q)
    = Cert.Sage.layer1 (R := 100000) (D := 128) (O := 256) (V c main_v17) (V c main_v7) (V c main_arg0) (V c main_v18) (V c main_v19) (V c main_v20) (((cfg0.win 6).blk t).view.emb (ix2 p q))
  refine (pay_apply _ _ _ _ _ _ p q).trans ?_
  rw [out_emb, Cert.Sage.layer1_ix2]
  exact congrFun (layer1Row_congr
    (funext fun k => sum_blk_apply V c t p k)
    (funext fun k => feat_blk_apply V c t p k)
    (cnt_blk_apply V c t p)
    (funext fun k => funext fun q' => wl_blk_apply V c t k q')
    (funext fun k => funext fun q' => wr_blk_apply V c t k q')
    (funext fun q' => bias_blk_apply V c t q')) q

/-- An index of the result array is in point `t`'s block iff each coordinate is in the block's range on its axis. -/
theorem mem_blk (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v21).slice (win0_6.rect t)).set ↔ _
  rw [View.set_slice_whole, Rect.mem_set_unit]
  exact Iff.rfl

/-- The fifty blocks tile the result array: row `r` lies in the block of point `r / 2000`, and every point writes back. -/
theorem cover (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  have ht : (i 0).val / 2000 < cfg0.N := by omega
  obtain ⟨-, -, -, ⟨e0, e1⟩⟩ := idx_moving ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]; omega

/-- The result array after the region: the layer of the arrays the region reads, as the region finds them. -/
theorem final (c : Dev nD) :
    (dat0 (F := Ideal) V c).arrAt 6 cfg0.N
      = Cert.Sage.layer1 (R := 100000) (D := 128) (O := 256) (V c main_v17) (V c main_v7) (V c main_arg0) (V c main_v18) (V c main_v19) (V c main_v20) := by
  exact (dat0 (F := Ideal) V c).arrAt_eq_of_cover 6 _ (fun t _ => flushed_eq V c t) cover

end Cert.KernelIdeal.Region0

end
-- ==== Proof.Region1.lean ====
/-
  Region 1 of the kernel: what the pallas_call leaves in its result array, as the second SAGE layer of the
  arrays it reads. A grid point t works on rows 2000·t … 2000·t + 1999: the body's stored value at row p of the
  block is `Sage.layer2Row` of row p of the point's input blocks, the blocks are rows of the arrays, and the fifty
  blocks tile the result array.

  The stored value is read index by index: a column broadcast over the lanes reads the column's entry of the same row,
  a lane reduction is a sum (or a fold of `max` from -∞) over the two lanes, and the product into the zero accumulator is
  the sum over the 256 contracted coordinates; what is left is, term for term, the layer's row. Block `t` of a node array
  is its rows `2000·t + p`, the weights and the bias are staged whole, and row `r` of the result lies in the block of
  point `r / 2000`.
-/
import proofs.«176304_j60352880443979_1_alg».proof.Proof.Gen.KernelIdeal.Frame
import proofs.«176304_j60352880443979_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## The layout operations of the body, read at explicit coordinates -/

/-- A column broadcast over two lanes reads the column's entry of the same row. -/
theorem col_to2_apply (v : FVec Ideal S2000x1 .f32) (p : Fin 2000) (q : Fin 2) :
    broadcastTo S2000x2 v broadcasts_S2000x1_S2000x2 (ix2 p q) = v (ix2 p 0) := by
  refine broadcastTo_apply v broadcasts_S2000x1_S2000x2 (ix2 p q) (ix2 p (0 : Fin 1)) fun ax => ?_
  match ax with
  | ⟨0, _⟩ => rfl
  | ⟨1, _⟩ => rfl

/-- A column broadcast over 256 lanes reads the column's entry of the same row. -/
theorem col_to256_apply (v : FVec Ideal S2000x1 .f32) (p : Fin 2000) (k : Fin 256) :
    broadcastTo S2000x256 v broadcasts_S2000x1_S2000x256 (ix2 p k) = v (ix2 p 0) := by
  refine broadcastTo_apply v broadcasts_S2000x1_S2000x256 (ix2 p k) (ix2 p (0 : Fin 1)) fun ax => ?_
  match ax with
  | ⟨0, _⟩ => rfl
  | ⟨1, _⟩ => rfl

/-- The one row of the bias broadcast over the 2000 rows reads the bias at the same column. -/
theorem row_to2000_apply (v : FVec Ideal S1x2 .f32) (p : Fin 2000) (q : Fin 2) :
    broadcastTo S2000x2 v broadcasts_S1x2_S2000x2 (ix2 p q) = v (ix2 0 q) :=
  broadcastTo_1b_ab_apply v broadcasts_S1x2_S2000x2 p q

/-- A vector of 2000 entries viewed as a column keeps entry `p` at row `p`. -/
theorem as_col_apply (v : FVec Ideal S2000 .f32) (p : Fin 2000) :
    shapeCast S2000x1 v shapeCasts_S2000_S2000x1 (ix2 p (0 : Fin 1)) = v (ix1 p) :=
  shapeCast_apply v shapeCasts_S2000_S2000x1 _ _ (by
    rw [Shape.rowMajor_val_two, Shape.rowMajor_val_one]
    show p.val = p.val * 1 + 0
    omega)

/-! ## The two lane reductions of the body -/

/-- The sum over the two lanes of row `p`. -/
theorem lane_sum_apply (v : FVec Ideal S2000x2 .f32) (p : Fin 2000) (hφ : FKind.Formats .f32)
    (hacc : (0x00000000#32 : BitVec 32) = 0x00000000#32) :
    multiReduction (F := Ideal) .add [1] S2000 v 0x00000000#32 reduces_S2000x2_S2000 hφ hacc (ix1 p)
      = ∑ q : Fin 2, v (ix2 p q) := by
  refine (Ideal.multiReduction_add_single v 0x00000000#32 reduces_S2000x2_S2000 hφ hacc (ix1 p)).trans ?_
  refine Finset.sum_congr rfl fun q _ => congrArg v ?_
  funext a
  match a with
  | ⟨0, _⟩ => rfl
  | ⟨1, _⟩ => rfl

/-- The largest of the two lanes of row `p`, folded from -∞. -/
theorem lane_max_apply (v : FVec Ideal S2000x2 .f32) (p : Fin 2000) (hφ : FKind.Formats .f32)
    (hacc : (0xFF800000#32 : BitVec 32) = 0xFF800000#32) :
    multiReduction (F := Ideal) .maximumf [1] S2000 v 0xFF800000#32 reduces_S2000x2_S2000 hφ hacc (ix1 p)
      = Cert.Sage.rowMax (fun q : Fin 2 => v (ix2 p q)) := by
  refine (Ideal.multiReduction_maximumf_single v 0xFF800000#32 reduces_S2000x2_S2000 hφ hacc (ix1 p)).trans ?_
  unfold Cert.Sage.rowMax
  refine congrArg (fun f => (Finset.univ : Finset (Fin 2)).fold max _ f) ?_
  funext q
  refine congrArg v ?_
  funext a
  match a with
  | ⟨0, _⟩ => rfl
  | ⟨1, _⟩ => rfl

/-! ## The matrix product of the body

The product contracts the left operand's lanes with the right operand's rows: at row `p`, column `q` it is
`∑ k, a (p, k) · b (k, q)`. The four facts below say which coordinate of the output index or of the contraction index
each operand coordinate is. -/

theorem lhs_mm_0 (i : S2000x2.Idx) (c : dot_S2000x256_S256x2_S2000x2_1_0_0_1_n_n.contr.Idx) :
    (dot_S2000x256_S256x2_S2000x2_1_0_0_1_n_n.lhsIdx i c 0).val = (i 0).val := by
  unfold DotDims.lhsIdx
  rw [dif_neg (show ¬(0 : Fin S2000x256.rank) ∈ dot_S2000x256_S256x2_S2000x2_1_0_0_1_n_n.lhsBatch by decide), dif_pos (show (0 : Fin S2000x256.rank) ∈ dot_S2000x256_S256x2_S2000x2_1_0_0_1_n_n.lhsNonContracting by decide)]
  rfl
theorem lhs_mm_1 (i : S2000x2.Idx) (c : dot_S2000x256_S256x2_S2000x2_1_0_0_1_n_n.contr.Idx) :
    (dot_S2000x256_S256x2_S2000x2_1_0_0_1_n_n.lhsIdx i c 1).val = (c ⟨0, by decide⟩).val :=
  dot_S2000x256_S256x2_S2000x2_1_0_0_1_n_n.lhsIdx_val_of_single rfl i c
theorem rhs_mm_0 (i : S2000x2.Idx) (c : dot_S2000x256_S256x2_S2000x2_1_0_0_1_n_n.contr.Idx) :
    (dot_S2000x256_S256x2_S2000x2_1_0_0_1_n_n.rhsIdx i c 0).val = (c ⟨0, by decide⟩).val :=
  dot_S2000x256_S256x2_S2000x2_1_0_0_1_n_n.rhsIdx_val_of_single rfl i c
theorem rhs_mm_1 (i : S2000x2.Idx) (c : dot_S2000x256_S256x2_S2000x2_1_0_0_1_n_n.contr.Idx) :
    (dot_S2000x256_S256x2_S2000x2_1_0_0_1_n_n.rhsIdx i c 1).val = (i 1).val := by
  unfold DotDims.rhsIdx
  rw [dif_neg (show ¬(1 : Fin S256x2.rank) ∈ dot_S2000x256_S256x2_S2000x2_1_0_0_1_n_n.rhsBatch by decide), dif_pos (show (1 : Fin S256x2.rank) ∈ dot_S2000x256_S256x2_S2000x2_1_0_0_1_n_n.rhsNonContracting by decide)]
  rfl

/-- The product into the zero accumulator, at row `p` and column `q`: the sum over the 256 contracted coordinates. -/
theorem mm_apply {φ₁ φ₂ : FTy} (a : FVec Ideal S2000x256 φ₁) (b : FVec Ideal S256x2 φ₂) (p : Fin 2000) (q : Fin 2) :
    matmul (F := Ideal) dot_S2000x256_S256x2_S2000x2_1_0_0_1_n_n none a b (constant (F := Ideal) S2000x2 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x2_S2000x2_1_0_0_1_n_n 256 rfl rfl).symm]
  refine Finset.sum_congr rfl fun k _ => ?_
  have hk := ValueIdx.contrEquiv1_symm_val dot_S2000x256_S256x2_S2000x2_1_0_0_1_n_n 256 rfl rfl k
  have el : dot_S2000x256_S256x2_S2000x2_1_0_0_1_n_n.lhsIdx (ix2 p q) ((ValueIdx.contrEquiv1 dot_S2000x256_S256x2_S2000x2_1_0_0_1_n_n 256 rfl rfl).symm k) = ix2 p k := funext fun ax => Fin.ext (by
    match ax with
    | ⟨0, _⟩ => exact lhs_mm_0 _ _
    | ⟨1, _⟩ => exact (lhs_mm_1 _ _).trans hk)
  have er : dot_S2000x256_S256x2_S2000x2_1_0_0_1_n_n.rhsIdx (ix2 p q) ((ValueIdx.contrEquiv1 dot_S2000x256_S256x2_S2000x2_1_0_0_1_n_n 256 rfl rfl).symm k) = ix2 k q := funext fun ax => Fin.ext (by
    match ax with
    | ⟨0, _⟩ => exact (rhs_mm_0 _ _).trans hk
    | ⟨1, _⟩ => exact rhs_mm_1 _ _)
  rw [el, er]

/-! ## The pointwise functions of the body -/

theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-! ## The body's values, row by row -/

/-- Row `p` of the block before the logarithm of the softmax: the mean of the neighbours and the node's own features through
the two linear maps, the bias added, the row divided by its Euclidean norm. -/
abbrev zrow (v0 : Vec Ideal S2000x1 .f32) (v4 v9 : Vec Ideal S2000x256 .f32) (vl vr : Vec Ideal S256x2 .f32) (vb : Vec Ideal S1x2 .f32)
    (p : Fin 2000) : Fin 2 → EReal :=
  Cert.Sage.normRow (Cert.Sage.linRow
    (Cert.Sage.meanRow (Cert.Sage.rowOf (R := 2000) (D := 256) v4 p) (v0 (ix2 p 0))) (Cert.Sage.rowOf (R := 2000) (D := 256) v9 p)
    (Cert.Sage.mat (D := 256) (O := 2) vl) (Cert.Sage.mat (D := 256) (O := 2) vr) (Cert.Sage.rowOf (R := 1) (D := 2) vb 0))

/-- The normalised row: the body's quotient at row `p`, column `q`. -/
theorem pay2_apply (v0 : Vec Ideal S2000x1 .f32) (v4 v9 : Vec Ideal S2000x256 .f32) (vl vr : Vec Ideal S256x2 .f32) (vb : Vec Ideal S1x2 .f32) (p : Fin 2000) (q : Fin 2) :
    k1_pay2 (F := Ideal) v0 v4 v9 vl vr vb (ix2 p q) = zrow v0 v4 v9 vl vr vb p q := by
  unfold k1_pay2
  simp only [shapeCast_self, divf_apply, addf_apply, mulf_apply, maximumf_apply, truncf_apply, broadcast_apply, sqrt_apply,
    col_to2_apply, col_to256_apply, row_to2000_apply, as_col_apply, mm_apply]
  rw [lane_sum_apply]
  simp only [shapeCast_self, divf_apply, addf_apply, mulf_apply, maximumf_apply, truncf_apply, broadcast_apply,
    col_to256_apply, row_to2000_apply, mm_apply]
  rfl

/-- The row's largest entry, as the column the body keeps. -/
theorem pay3_apply (v0 : Vec Ideal S2000x1 .f32) (v4 v9 : Vec Ideal S2000x256 .f32) (vl vr : Vec Ideal S256x2 .f32) (vb : Vec Ideal S1x2 .f32) (p : Fin 2000) :
    k1_pay3 (F := Ideal) v0 v4 v9 vl vr vb (ix2 p 0) = Cert.Sage.rowMax (zrow v0 v4 v9 vl vr vb p) := by
  unfold k1_pay3
  simp only [as_col_apply]
  rw [lane_max_apply]
  simp only [pay2_apply]

/-- The sum over the row of the exponentials of the entries less the largest, as the column the body keeps. -/
theorem pay4_apply (v0 : Vec Ideal S2000x1 .f32) (v4 v9 : Vec Ideal S2000x256 .f32) (vl vr : Vec Ideal S256x2 .f32) (vb : Vec Ideal S1x2 .f32) (p : Fin 2000) :
    k1_pay4 (F := Ideal) v0 v4 v9 vl vr vb (ix2 p 0)
      = ∑ q : Fin 2, Ideal.exp (zrow v0 v4 v9 vl vr vb p q - Cert.Sage.rowMax (zrow v0 v4 v9 vl vr vb p)) := by
  unfold k1_pay4
  simp only [as_col_apply]
  rw [lane_sum_apply]
  simp only [exp_apply, subf_apply, col_to2_apply, pay2_apply, pay3_apply]

/-- The body's stored value at row `p`, column `q` of the block: one row of the layer, of row `p` of the loaded blocks. -/
theorem pay_apply (v0 : Vec Ideal S2000x1 .f32) (v4 v9 : Vec Ideal S2000x256 .f32) (vl vr : Vec Ideal S256x2 .f32) (vb : Vec Ideal S1x2 .f32) (p : Fin 2000) (q : Fin 2) :
    k1_pay1 (F := Ideal) (k1_pay2 v0 v4 v9 vl vr vb) (k1_pay3 v0 v4 v9 vl vr vb) (k1_pay4 v0 v4 v9 vl vr vb) (ix2 p q)
      = Cert.Sage.layer2Row (Cert.Sage.rowOf (R := 2000) (D := 256) v4 p) (Cert.Sage.rowOf (R := 2000) (D := 256) v9 p) (v0 (ix2 p 0))
          (Cert.Sage.mat (D := 256) (O := 2) vl) (Cert.Sage.mat (D := 256) (O := 2) vr) (Cert.Sage.rowOf (R := 1) (D := 2) vb 0) q := by
  unfold k1_pay1
  simp only [subf_apply, log_apply, col_to2_apply, pay2_apply, pay3_apply, pay4_apply]
  rfl

/-! ## From the blocks to the arrays -/

theorem hz : (![0, 0] : Fin 2 → Nat) = fun _ => 0 := funext fun a => by fin_cases a <;> rfl

/-- The block index of every window at every point of the grid: the four windows over the node arrays are at block `t` of
the rows, the three over the weights and the bias stay at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- A point of the grid is below 50. -/
theorem pt_lt (t : Fin cfg1.N) : t.val < 50 := by
  have h := t.isLt
  have hN : cfg1.N = 50 := N_1
  omega

/-- Row `p` of block `t` is row `2000·t + p` of the array. -/
abbrev rowAt (t : Fin cfg1.N) (p : Fin 2000) : Fin 100000 := ⟨2000 * t.val + p.val, by have := pt_lt t; omega⟩

variable (V : (c : Dev nD) → (b : Ref sig .tc) → Buf (Elt Ideal) ((c : Thread nD τ).loc b))

/-- The block of neighbour sums at point `t` is rows `2000·t … 2000·t + 1999` of their array. -/
theorem sum_blk_apply (c : Dev nD) (t : Fin cfg1.N) (p : Fin 2000) (k : Fin 256) :
    (iblk1 V c 0 t : Vec Ideal S2000x256 .f32) (ix2 p k) = (V c main_v31 : S100000x256.Idx → EReal) (ix2 (rowAt t p) k) := by
  obtain ⟨⟨e0, e1⟩, -⟩ := idx_facts t
  unfold iblk1
  rw [View.read_apply]
  show V c main_v31 _ = V c main_v31 _
  congr 1
  funext a
  apply Fin.ext
  match a with
  | ⟨0, _⟩ => show win1_0.index t 0 * 2000 + 1 * p.val = 2000 * t.val + p.val; rw [e0]; omega
  | ⟨1, _⟩ => show win1_0.index t 1 * 256 + 1 * k.val = k.val; rw [e1]; omega

/-- The block of counts at point `t` is the same rows of the count column. -/
theorem cnt_blk_apply (c : Dev nD) (t : Fin cfg1.N) (p : Fin 2000) (u : Fin 1) :
    (iblk1 V c 1 t : Vec Ideal S2000x1 .f32) (ix2 p u) = (V c main_v7 : S100000x1.Idx → EReal) (ix2 (rowAt t p) u) := by
  obtain ⟨-, ⟨e0, e1⟩, -⟩ := idx_facts t
  unfold iblk1
  rw [View.read_apply]
  show V c main_v7 _ = V c main_v7 _
  congr 1
  funext a
  apply Fin.ext
  match a with
  | ⟨0, _⟩ => show win1_1.index t 0 * 2000 + 1 * p.val = 2000 * t.val + p.val; rw [e0]; omega
  | ⟨1, _⟩ => show win1_1.index t 1 * 1 + 1 * u.val = u.val; rw [e1]; omega

/-- The block of the nodes' own features at point `t` is the same rows of the feature array. -/
theorem feat_blk_apply (c : Dev nD) (t : Fin cfg1.N) (p : Fin 2000) (k : Fin 256) :
    (iblk1 V c 2 t : Vec Ideal S2000x256 .f32) (ix2 p k) = (V c main_v21 : S100000x256.Idx → EReal) (ix2 (rowAt t p) k) := by
  obtain ⟨-, -, ⟨e0, e1⟩, -⟩ := idx_facts t
  unfold iblk1
  rw [View.read_apply]
  show V c main_v21 _ = V c main_v21 _
  congr 1
  funext a
  apply Fin.ext
  match a with
  | ⟨0, _⟩ => show win1_2.index t 0 * 2000 + 1 * p.val = 2000 * t.val + p.val; rw [e0]; omega
  | ⟨1, _⟩ => show win1_2.index t 1 * 256 + 1 * k.val = k.val; rw [e1]; omega

/-- The first weight matrix is staged whole at every point. -/
theorem wl_blk_apply (c : Dev nD) (t : Fin cfg1.N) (k : Fin 256) (q : Fin 2) :
    (iblk1 V c 3 t : Vec Ideal S256x2 .f32) (ix2 k q) = (V c main_v32 : S256x2.Idx → EReal) (ix2 k q) := by
  obtain ⟨-, -, -, ⟨e0, e1⟩, -⟩ := idx_facts t
  unfold iblk1
  rw [View.read_apply]
  show V c main_v32 _ = V c main_v32 _
  congr 1
  funext a
  apply Fin.ext
  match a with
  | ⟨0, _⟩ => show win1_3.index t 0 * 256 + 1 * k.val = k.val; rw [e0]; omega
  | ⟨1, _⟩ => show win1_3.index t 1 * 2 + 1 * q.val = q.val; rw [e1]; omega

/-- The second weight matrix is staged whole at every point. -/
theorem wr_blk_apply (c : Dev nD) (t : Fin cfg1.N) (k : Fin 256) (q : Fin 2) :
    (iblk1 V c 4 t : Vec Ideal S256x2 .f32) (ix2 k q) = (V c main_v33 : S256x2.Idx → EReal) (ix2 k q) := by
  obtain ⟨-, -, -, -, ⟨e0, e1⟩, -⟩ := idx_facts t
  unfold iblk1
  rw [View.read_apply]
  show V c main_v33 _ = V c main_v33 _
  congr 1
  funext a
  apply Fin.ext
  match a with
  | ⟨0, _⟩ => show win1_4.index t 0 * 256 + 1 * k.val = k.val; rw [e0]; omega
  | ⟨1, _⟩ => show win1_4.index t 1 * 2 + 1 * q.val = q.val; rw [e1]; omega

/-- The bias row is staged whole at every point. -/
theorem bias_blk_apply (c : Dev nD) (t : Fin cfg1.N) (u : Fin 1) (q : Fin 2) :
    (iblk1 V c 5 t : Vec Ideal S1x2 .f32) (ix2 u q) = (V c main_v34 : S1x2.Idx → EReal) (ix2 u q) := by
  obtain ⟨-, -, -, -, -, ⟨e0, e1⟩, -⟩ := idx_facts t
  unfold iblk1
  rw [View.read_apply]
  show V c main_v34 _ = V c main_v34 _
  congr 1
  funext a
  apply Fin.ext
  match a with
  | ⟨0, _⟩ => show win1_5.index t 0 * 1 + 1 * u.val = u.val; rw [e0]; omega
  | ⟨1, _⟩ => show win1_5.index t 1 * 2 + 1 * q.val = q.val; rw [e1]; omega

/-- What the body leaves in the output block at row `p`, column `q`: the layer's row of row `p` of the input blocks. -/
theorem out_apply (x0 : Vec Ideal S2000x256 .f32) (x1 : Vec Ideal S2000x1 .f32) (x2 : Vec Ideal S2000x256 .f32) (x3 x4 : Vec Ideal S256x2 .f32) (x5 : Vec Ideal S1x2 .f32)
    (p : Fin 2000) (q : Fin 2) :
    out1_6 (F := Ideal) x0 x1 x2 x3 x4 x5 (ix2 p q)
      = Cert.Sage.layer2Row (Cert.Sage.rowOf (R := 2000) (D := 256) x0 p) (Cert.Sage.rowOf (R := 2000) (D := 256) x2 p) (x1 (ix2 p 0))
          (Cert.Sage.mat (D := 256) (O := 2) x3) (Cert.Sage.mat (D := 256) (O := 2) x4) (Cert.Sage.rowOf (R := 1) (D := 2) x5 0) q := by
  unfold out1_6
  rw [View.canon_unit_zero hz]
  simp only [View.ld_unit_zero (S := S2000x256) hz, View.ld_unit_zero (S := S2000x1) hz, View.ld_unit_zero (S := S256x2) hz,
    View.ld_unit_zero (S := S1x2) hz]
  exact pay_apply x1 x0 x2 x3 x4 x5 p q

/-- A row of the layer depends only on its six arguments. -/
theorem layer2Row_congr {s s' x x' : Fin 256 → EReal} {cn cn' : EReal} {wl wl' wr wr' : Fin 256 → Fin 2 → EReal} {b b' : Fin 2 → EReal}
    (hs : s = s') (hx : x = x') (hc : cn = cn') (hl : wl = wl') (hr : wr = wr') (hb : b = b') (q : Fin 2) :
    Cert.Sage.layer2Row s x cn wl wr b q = Cert.Sage.layer2Row s' x' cn' wl' wr' b' q := by
  subst hs hx hc hl hr hb; rfl

/-- The layer of the whole arrays, as the region finds them. -/
abbrev result (c : Dev nD) : Cert.Sage.Arr 100000 2 :=
  Cert.Sage.layer2 (R := 100000) (D := 256) (O := 2) (V c main_v31) (V c main_v7) (V c main_v21) (V c main_v32) (V c main_v33) (V c main_v34)

/-- WHAT POINT `t` WRITES BACK is block `t` of the layer of the whole arrays: rows `2000·t … 2000·t + 1999`. -/
theorem flushed_eq (c : Dev nD) (t : Fin cfg1.N) :
    (dat1 (F := Ideal) V c).flushed 6 t = ((cfg1.win 6).blk t).view.read (Elt Ideal) (result V c) := by
  show (cfg1.win 6).cut (grid1.coords t) ((dat1 V c).after 6 t) = _
  rw [after1_6]
  obtain ⟨-, -, -, -, -, -, ⟨e0, e1⟩⟩ := idx_facts t
  refine funext fun (j : S2000x2.Idx) => ?_
  obtain ⟨p, q, rfl⟩ : ∃ (p : Fin 2000) (q : Fin 2), j = ix2 p q := ⟨j 0, j 1, eq_ix2 j⟩
  rw [View.read_apply]
  have hemb : ((cfg1.win 6).blk t).view.emb (ix2 p q) = (ix2 (rowAt t p) q : S100000x2.Idx) := by
    funext a
    apply Fin.ext
    match a with
    | ⟨0, _⟩ => show win1_6.index t 0 * 2000 + 1 * p.val = 2000 * t.val + p.val; rw [e0]; omega
    | ⟨1, _⟩ => show win1_6.index t 1 * 2 + 1 * q.val = q.val; rw [e1]; omega
  refine (out_apply _ _ _ _ _ _ p q).trans ?_
  refine Eq.trans ?_ (congrArg (result V c) hemb).symm
  refine Eq.trans ?_ (Cert.Sage.layer2_ix2 _ _ _ _ _ _ (rowAt t p) q).symm
  exact layer2Row_congr (funext fun k => sum_blk_apply V c t p k) (funext fun k => feat_blk_apply V c t p k) (cnt_blk_apply V c t p 0)
    (funext fun k => funext fun j => wl_blk_apply V c t k j) (funext fun k => funext fun j => wr_blk_apply V c t k j)
    (funext fun j => bias_blk_apply V c t 0 j) q

/-- An index of the result array is in point `t`'s block iff, on each axis, its coordinate is in the block's range. -/
theorem mem_blk (t : Fin cfg1.N) (i : S100000x2.Idx) :
    i ∈ ((cfg1.win 6).blk t).view.set ↔ ∀ a : Fin 2, win1_6.index t a * S2000x2.size a ≤ (i a).val ∧ (i a).val < win1_6.index t a * S2000x2.size a + S2000x2.size a := by
  show i ∈ ((View.whole main_v35).slice (win1_6.rect t)).set ↔ _
  rw [View.set_slice_whole, Rect.mem_set_unit]
  exact Iff.rfl

/-- The fifty blocks tile the result array: row `r` is in the block of point `r / 2000`, and every point writes back. -/
theorem cover (i : S100000x2.Idx) : ∃ t : Fin cfg1.N, (cfg1.win 6).flush t = true ∧ i ∈ ((cfg1.win 6).blk t).view.set := by
  have hi0 : (i 0).val < 100000 := (i 0).isLt
  have hi1 : (i 1).val < 2 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, ⟨e0, e1⟩⟩ := idx_facts t
  refine ⟨t, flush1_6 t, ?_⟩
  rw [mem_blk]
  intro a
  match a with
  | ⟨0, _⟩ => show win1_6.index t 0 * 2000 ≤ (i 0).val ∧ (i 0).val < win1_6.index t 0 * 2000 + 2000; rw [e0, ht]; omega
  | ⟨1, _⟩ => show win1_6.index t 1 * 2 ≤ (i 1).val ∧ (i 1).val < win1_6.index t 1 * 2 + 2; rw [e1]; omega

/-- The result array after the region: the layer of the arrays the region reads, as the region finds them. -/
theorem final (c : Dev nD) :
    (dat1 (F := Ideal) V c).arrAt 6 cfg1.N
      = Cert.Sage.layer2 (R := 100000) (D := 256) (O := 2) (V c main_v31) (V c main_v7) (V c main_v21) (V c main_v32) (V c main_v33) (V c main_v34) :=
  (dat1 V c).arrAt_eq_of_cover 6 (result V c) (fun t _ => flushed_eq V c t) cover

end Cert.KernelIdeal.Region1

end
-- ==== Proof.RefLayer1.lean ====
/-
  The reference's first layer, read one operation at a time at an index, is `Cert.Sage.layer1` of the
  neighbour sums, the neighbour counts, the node features and the layer's weights and bias as the reference itself
  computes them (its scatter-adds, its transposed weights, its broadcast bias). The reference adds the bias between
  the two matrix products; addition of extended reals is commutative and associative, so that is the same row.

  The reading goes row by row. At row `n` and column `j`:
    the mean            %21 (n, k) = %13 (n, k) / max(%17 (n, 0), 1)
    the left product    %23 (n, j) = Σ_k %21 (n, k) · %22 (k, j)
    the bias            %25 (n, j) = %24 (0, j)
    the right product   %28 (n, j) = Σ_k x (n, k) · %27 (k, j)
    the linear map      %29 (n, j) = (%23 (n, j) + %25 (n, j)) + %28 (n, j)
    the squared norm    Σ_k %29 (n, k) · %29 (n, k)   (the sum starts from the literal 0, which is the real 0)
    the normalisation   %34 (n, j) = %29 (n, j) / max(sqrt(that sum), ε)
    the positive part   %35 (n, j) = max(%34 (n, j), 0)
  Every broadcast only repeats a value along an axis, so its index map drops that coordinate: the count of row `n`
  is read at `(n, 0)`, the bias of column `j` at `(0, j)`, the norm of row `n` at `n`.
-/
import proofs.«176304_j60352880443979_1_alg».proof.Proof.RefReadP
import proofs.«176304_j60352880443979_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.ReferenceIdeal.Layer1

open Cert.ReferenceIdeal Cert.ReferenceIdeal.ReadP

/-! ## The index maps at a row and a column

  Each map below is the composed index function of one operation, evaluated at `(n, j)` (or `(n, k)`, or `n`): a product's
  left operand is read at `(n, k)`, its right operand at `(k, j)`; a broadcast along an axis forgets that axis' coordinate. -/

/-- The left operand of the first product, at output `(n, j)` and summand `k`, is read at `(n, k)`. -/
theorem lidx23 (n : Fin 100000) (j : Fin 256) (k : Fin 128) : lidx_main_v23 (ix2 n j) k = ix2 n k :=
  funext fun a => Fin.ext (by match a with | ⟨0, _⟩ => rfl | ⟨1, _⟩ => rfl)
/-- The right operand of the first product, at output `(n, j)` and summand `k`, is read at `(k, j)`. -/
theorem ridx23 (n : Fin 100000) (j : Fin 256) (k : Fin 128) : ridx_main_v23 (ix2 n j) k = ix2 k j :=
  funext fun a => Fin.ext (by match a with | ⟨0, _⟩ => rfl | ⟨1, _⟩ => rfl)
/-- The left operand of the second product is read at `(n, k)`. -/
theorem lidx28 (n : Fin 100000) (j : Fin 256) (k : Fin 128) : lidx_main_v28 (ix2 n j) k = ix2 n k :=
  funext fun a => Fin.ext (by match a with | ⟨0, _⟩ => rfl | ⟨1, _⟩ => rfl)
/-- The right operand of the second product is read at `(k, j)`. -/
theorem ridx28 (n : Fin 100000) (j : Fin 256) (k : Fin 128) : ridx_main_v28 (ix2 n j) k = ix2 k j :=
  funext fun a => Fin.ext (by match a with | ⟨0, _⟩ => rfl | ⟨1, _⟩ => rfl)
/-- The count column, repeated along the 128 feature columns, is read at `(n, 0)` whatever the column. -/
theorem idx20 (n : Fin 100000) (k : Fin 128) : idx_main_v20 (ix2 n k) = ix2 n 0 :=
  funext fun a => Fin.ext (by match a with | ⟨0, _⟩ => rfl | ⟨1, _⟩ => rfl)
/-- The bias row, repeated along the 100000 rows, is read at `(0, j)` whatever the row. -/
theorem idx25 (n : Fin 100000) (j : Fin 256) : idx_main_v25 (ix2 n j) = ix2 0 j :=
  funext fun a => Fin.ext (by match a with | ⟨0, _⟩ => rfl | ⟨1, _⟩ => rfl)

/-! ## The linear map of a row -/

/-- The mean of the neighbours: the neighbour sum of row `n`, column `k`, divided by the row's count, a count below one read as one. -/
theorem mean_at (x0 : (⟨S100000x128, .f32⟩ : BufTy).Contents (Elt Ideal)) (x1 : (⟨S2x600000, .i32⟩ : BufTy).Contents (Elt Ideal)) (n : Fin 100000) (k : Fin 128) :
    val_main_v21 (F := Ideal) x0 x1 (ix2 n k)
      = Cert.Sage.meanRow (Cert.Sage.rowOf (val_main_v13 (F := Ideal) x0 x1) n) (val_main_v17 (F := Ideal) x1 (ix2 n 0)) k := by
  rw [val_main_v21_apply, val_main_v20_apply, idx20, val_main_v19_apply, val_main_v18_apply, val_main_cst_3_apply,
    Ideal.hostDivf_def, Ideal.maximumf_def, Ideal.ofBits_def]
  rfl

/-- The first product at `(n, j)`: the row of means against column `j` of the transposed left weights. -/
theorem dotl_at (x0 : (⟨S100000x128, .f32⟩ : BufTy).Contents (Elt Ideal)) (x1 : (⟨S2x600000, .i32⟩ : BufTy).Contents (Elt Ideal)) (x2 : (⟨S256x128, .f32⟩ : BufTy).Contents (Elt Ideal)) (n : Fin 100000) (j : Fin 256) :
    val_main_v23 (F := Ideal) x0 x1 x2 (ix2 n j)
      = ∑ k : Fin 128, Cert.Sage.meanRow (Cert.Sage.rowOf (val_main_v13 (F := Ideal) x0 x1) n) (val_main_v17 (F := Ideal) x1 (ix2 n 0)) k
          * Cert.Sage.mat (val_main_v22 (F := Ideal) x2) k j := by
  rw [val_main_v23_apply]
  exact Finset.sum_congr rfl fun k _ => by rw [lidx23, ridx23, mean_at]

/-- The broadcast bias at `(n, j)` is entry `j` of the bias row. -/
theorem bias_at (x3 : (⟨S256, .f32⟩ : BufTy).Contents (Elt Ideal)) (n : Fin 100000) (j : Fin 256) :
    val_main_v25 (F := Ideal) x3 (ix2 n j) = Cert.Sage.rowOf (val_main_v24 (F := Ideal) x3) 0 j := by
  rw [val_main_v25_apply, idx25]

/-- The second product at `(n, j)`: the node's own feature row against column `j` of the transposed right weights. -/
theorem dotr_at (x0 : (⟨S100000x128, .f32⟩ : BufTy).Contents (Elt Ideal)) (x4 : (⟨S256x128, .f32⟩ : BufTy).Contents (Elt Ideal)) (n : Fin 100000) (j : Fin 256) :
    val_main_v28 (F := Ideal) x0 x4 (ix2 n j)
      = ∑ k : Fin 128, Cert.Sage.rowOf x0 n k * Cert.Sage.mat (val_main_v27 (F := Ideal) x4) k j := by
  rw [val_main_v28_apply]
  exact Finset.sum_congr rfl fun k _ => by rw [lidx28, ridx28]

/-- The linear map at `(n, j)`, in the reference's order: (left product + bias) + right product. -/
theorem lin_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 100000) (j : Fin 256) :
    val_main_v29 (F := Ideal) x0 x1 x2 x3 x4 (ix2 n j)
      = Cert.Sage.linRowRef (Cert.Sage.meanRow (Cert.Sage.rowOf (val_main_v13 (F := Ideal) x0 x1) n) (val_main_v17 (F := Ideal) x1 (ix2 n 0)))
          (Cert.Sage.rowOf x0 n) (Cert.Sage.mat (val_main_v22 (F := Ideal) x2)) (Cert.Sage.mat (val_main_v27 (F := Ideal) x4)) (Cert.Sage.rowOf (val_main_v24 (F := Ideal) x3) 0) j := by
  rw [val_main_v29_apply, val_main_v26_apply, dotl_at, bias_at, dotr_at, Ideal.addf_def, Ideal.addf_def]
  rfl

/-! ## The normalisation and the positive part -/

/-- The column of norms, repeated along the 256 output columns, is read at `(n, 0)` whatever the column. -/
theorem idx33 (n : Fin 100000) (j : Fin 256) : idx_main_v33 (ix2 n j) = ix2 n 0 :=
  funext fun a => Fin.ext (by match a with | ⟨0, _⟩ => rfl | ⟨1, _⟩ => rfl)
/-- The column of norms is the vector of row sums with a unit axis appended: `(n, 0)` reads entry `n`. -/
theorem idxc2 (n : Fin 100000) : idx_main_call0_v2 (ix2 n (0 : Fin 1)) = ix1 n :=
  funext fun a => Fin.ext (by match a with | ⟨0, _⟩ => rfl)
/-- The sum over the columns of row `n` runs over the entries `(n, k)`. -/
theorem idxc1 (n : Fin 100000) (k : Fin 256) : idx_main_call0_v1 (ix1 n) k = ix2 n k :=
  funext fun a => Fin.ext (by match a with | ⟨0, _⟩ => rfl | ⟨1, _⟩ => rfl)

/-- The sum of the squares of row `n` of the linear map; it starts from the literal 0, the real number 0, which adds nothing. -/
theorem sumsq_at (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 100000) :
    val_main_call0_v1 (F := Ideal) x0 x1 x2 x3 x4 (ix1 n)
      = ∑ k : Fin 256, val_main_v29 (F := Ideal) x0 x1 x2 x3 x4 (ix2 n k) * val_main_v29 (F := Ideal) x0 x1 x2 x3 x4 (ix2 n k) := by
  rw [val_main_call0_v1_apply, val_main_call0_cst_apply, Ideal.ofBits_def, Ideal.ofBits_zero_f32, zero_add]
  exact Finset.sum_congr rfl fun k _ => by rw [idxc1, val_main_call0_v0_apply, Ideal.mulf_def]

/-- The normalised row: the linear map at `(n, j)` divided by the Euclidean norm of row `n`, a norm below ε read as ε. -/
theorem norm_at (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 100000) (j : Fin 256) :
    val_main_v34 (F := Ideal) x0 x1 x2 x3 x4 (ix2 n j)
      = Ideal.div (val_main_v29 (F := Ideal) x0 x1 x2 x3 x4 (ix2 n j))
          (max (Ideal.sqrt (∑ k : Fin 256, val_main_v29 (F := Ideal) x0 x1 x2 x3 x4 (ix2 n k) * val_main_v29 (F := Ideal) x0 x1 x2 x3 x4 (ix2 n k))) Cert.Sage.eps) := by
  rw [val_main_v34_apply, val_main_v33_apply, idx33, val_main_v32_apply, val_main_v30_apply, val_main_call0_v2_apply, idxc2, sumsq_at,
    val_main_v31_apply, val_main_cst_4_apply, Ideal.hostDivf_def, Ideal.maximumf_def, Ideal.hostUnary_sqrt_def, Ideal.ofBits_def]

/-- The positive part: the maximum of the normalised entry and the literal 0. -/
theorem relu_at (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 100000) (j : Fin 256) :
    val_main_v35 (F := Ideal) x0 x1 x2 x3 x4 (ix2 n j) = max (val_main_v34 (F := Ideal) x0 x1 x2 x3 x4 (ix2 n j)) Cert.Sage.zero := by
  rw [val_main_v35_apply, val_main_call1_v0_apply, val_main_call1_cst_apply, Ideal.maximumf_def, Ideal.ofBits_def]

/-- The first layer's output (the reference's `%35`, after the ReLU) is `Sage.layer1` of its scatter-added neighbour sums `%13`, its
    neighbour counts `%17`, the features, its transposed weights `%22` and `%27` and its bias row `%24`. At `(n, j)` both sides are the
    positive part of the normalised linear map of row `n`; the reference's order of the three summands is brought to the
    specification's by commutativity and associativity of the sum. -/
theorem layer1 (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v35 (F := Ideal) x0 x1 x2 x3 x4
      = Cert.Sage.layer1 (R := 100000) (D := 128) (O := 256) (val_main_v13 (F := Ideal) x0 x1) (val_main_v17 (F := Ideal) x1) x0
          (val_main_v22 (F := Ideal) x2) (val_main_v27 (F := Ideal) x4) (val_main_v24 (F := Ideal) x3) := by
  funext i
  obtain ⟨n, j, rfl⟩ : ∃ (n : Fin 100000) (j : Fin 256), i = ix2 n j := ⟨i 0, i 1, eq_ix2 i⟩
  rw [Cert.Sage.layer1_ix2, relu_at, norm_at]
  simp only [lin_apply]
  rw [Cert.Sage.linRowRef_eq]
  unfold Cert.Sage.layer1Row Cert.Sage.reluRow Cert.Sage.normRow
  rfl

end Cert.ReferenceIdeal.Layer1

end
-- ==== Proof.RefLayer2.lean ====
/-
  The reference's second layer, read one operation at a time at an index, is `Cert.Sage.layer2` of the
  neighbour sums, the neighbour counts, the node features and the layer's weights and bias as the reference itself
  computes them (its scatter-adds, its transposed weights, its broadcast bias). The reference adds the bias between
  the two matrix products; addition of extended reals is commutative and associative, so that is the same row.
-/
import proofs.«176304_j60352880443979_1_alg».proof.Proof.RefReadP
import proofs.«176304_j60352880443979_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.ReferenceIdeal.Layer2

open Cert.ReferenceIdeal Cert.ReferenceIdeal.ReadP

/-! ### The index maps of the layer's operations at explicit coordinates

Each operation reads its operand at an index built from the coordinates of the result's index. At the index
(n, j) of a [100000, 2] array these are (n, k) and (k, j) for the two matrix products, (0, j) for the bias row and
(n, 0) for a column broadcast along the row. -/

theorem lidx55_ix2 (n : Fin 100000) (j : Fin 2) (k : Fin 256) : lidx_main_v55 (ix2 n j) k = ix2 n k :=
  funext fun a => Fin.ext (by match a with | ⟨0, _⟩ => rfl | ⟨1, _⟩ => rfl)
theorem ridx55_ix2 (n : Fin 100000) (j : Fin 2) (k : Fin 256) : ridx_main_v55 (ix2 n j) k = ix2 k j :=
  funext fun a => Fin.ext (by match a with | ⟨0, _⟩ => rfl | ⟨1, _⟩ => rfl)
theorem lidx60_ix2 (n : Fin 100000) (j : Fin 2) (k : Fin 256) : lidx_main_v60 (ix2 n j) k = ix2 n k :=
  funext fun a => Fin.ext (by match a with | ⟨0, _⟩ => rfl | ⟨1, _⟩ => rfl)
theorem ridx60_ix2 (n : Fin 100000) (j : Fin 2) (k : Fin 256) : ridx_main_v60 (ix2 n j) k = ix2 k j :=
  funext fun a => Fin.ext (by match a with | ⟨0, _⟩ => rfl | ⟨1, _⟩ => rfl)
theorem idx57_ix2 (n : Fin 100000) (j : Fin 2) : idx_main_v57 (ix2 n j) = ix2 0 j :=
  funext fun a => Fin.ext (by match a with | ⟨0, _⟩ => rfl | ⟨1, _⟩ => rfl)
theorem idx52_ix2 (n : Fin 100000) (k : Fin 256) : idx_main_v52 (ix2 n k) = ix2 n 0 :=
  funext fun a => Fin.ext (by match a with | ⟨0, _⟩ => rfl | ⟨1, _⟩ => rfl)

/-- The mean of the neighbours: the second neighbour sums divided by the count, a count below one read as one. -/
theorem mean_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (n : Fin 100000) (k : Fin 256) :
    val_main_v53 (F := Ideal) x0 x1 x2 x3 x4 (ix2 n k)
      = Cert.Sage.meanRow (Cert.Sage.rowOf (R := 100000) (D := 256) (val_main_v45 (F := Ideal) x0 x1 x2 x3 x4) n) (val_main_v49 (F := Ideal) x1 (ix2 n 0)) k := by
  rw [val_main_v53_apply, val_main_v52_apply, val_main_v51_apply, val_main_v50_apply, val_main_cst_10_apply, idx52_ix2]
  rfl

/-- The linear part of row `n`: the mean's product with the first weights, plus the bias, plus the row's own
    product with the second weights (the bias between the two products, as the reference adds it). -/
theorem lin_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (j : Fin 2) :
    val_main_v61 (F := Ideal) x0 x1 x2 x3 x4 x5 x6 x7 (ix2 n j)
      = Cert.Sage.linRowRef
          (Cert.Sage.meanRow (Cert.Sage.rowOf (R := 100000) (D := 256) (val_main_v45 (F := Ideal) x0 x1 x2 x3 x4) n) (val_main_v49 (F := Ideal) x1 (ix2 n 0)))
          (Cert.Sage.rowOf (R := 100000) (D := 256) (val_main_v35 (F := Ideal) x0 x1 x2 x3 x4) n)
          (Cert.Sage.mat (D := 256) (O := 2) (val_main_v54 (F := Ideal) x5)) (Cert.Sage.mat (D := 256) (O := 2) (val_main_v59 (F := Ideal) x7))
          (Cert.Sage.rowOf (R := 1) (D := 2) (val_main_v56 (F := Ideal) x6) 0) j := by
  rw [val_main_v61_apply, val_main_v58_apply, val_main_v55_apply, val_main_v60_apply, val_main_v57_apply, idx57_ix2]
  simp only [lidx55_ix2, ridx55_ix2, lidx60_ix2, ridx60_ix2, mean_apply]
  rfl

/-! ### The normalisation

The sum of squares of a row starts from 0 and runs over the row's two entries; its square root, read as ε when below
ε, divides every entry of the row. -/

theorem idx65_ix2 (n : Fin 100000) (j : Fin 2) : idx_main_v65 (ix2 n j) = ix2 n 0 :=
  funext fun a => Fin.ext (by match a with | ⟨0, _⟩ => rfl | ⟨1, _⟩ => rfl)
theorem idxc2v2_ix2 (n : Fin 100000) : idx_main_call2_v2 (ix2 n 0) = ix1 n :=
  funext fun a => Fin.ext (by match a with | ⟨0, _⟩ => rfl)
theorem idxc2v1_ix1 (n : Fin 100000) (k : Fin 2) : idx_main_call2_v1 (ix1 n) k = ix2 n k :=
  funext fun a => Fin.ext (by match a with | ⟨0, _⟩ => rfl | ⟨1, _⟩ => rfl)

/-- One term of the sum of squares. -/
theorem sq_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (k : Fin 2) :
    val_main_call2_v0 (F := Ideal) x0 x1 x2 x3 x4 x5 x6 x7 (idx_main_call2_v1 (ix1 n) k)
      = val_main_v61 (F := Ideal) x0 x1 x2 x3 x4 x5 x6 x7 (ix2 n k) * val_main_v61 (F := Ideal) x0 x1 x2 x3 x4 x5 x6 x7 (ix2 n k) := by
  rw [idxc2v1_ix1, val_main_call2_v0_apply]
  rfl

/-- The normalised row: each entry divided by the row's Euclidean norm, a norm below ε read as ε. -/
theorem norm_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (j : Fin 2) :
    val_main_v66 (F := Ideal) x0 x1 x2 x3 x4 x5 x6 x7 (ix2 n j)
      = Cert.Sage.normRow (fun j' : Fin 2 => val_main_v61 (F := Ideal) x0 x1 x2 x3 x4 x5 x6 x7 (ix2 n j')) j := by
  rw [val_main_v66_apply, val_main_v65_apply, val_main_v64_apply, val_main_v62_apply, val_main_call2_v2_apply,
    val_main_call2_v1_apply, val_main_v63_apply, val_main_cst_11_apply, val_main_call2_cst_apply, idx65_ix2, idxc2v2_ix2]
  simp only [sq_apply]
  rw [show FloatOps.ofBits (F := Ideal) .f32 0x00000000#32 = 0 from Ideal.ofBits_zero_f32, zero_add]
  unfold Cert.Sage.normRow
  simp only [Ideal.hostDivf_def, Ideal.maximumf_def, Ideal.hostUnary_sqrt_def, Ideal.ofBits_def]

/-! ### The logarithm of the softmax

The row's maximum is a fold of `max` from -∞ over the row's two entries; the reference takes one more maximum with
-∞, which changes nothing. The row shifted by its maximum is exponentiated, summed from 0, and the logarithm of
that sum is subtracted from the shifted row. -/

theorem idxc3v4_ix2 (n : Fin 100000) (j : Fin 2) : idx_main_call3_v4 (ix2 n j) = ix2 n 0 :=
  funext fun a => Fin.ext (by match a with | ⟨0, _⟩ => rfl | ⟨1, _⟩ => rfl)
theorem idxc3v3_ix2 (n : Fin 100000) : idx_main_call3_v3 (ix2 n 0) = ix1 n :=
  funext fun a => Fin.ext (by match a with | ⟨0, _⟩ => rfl)
theorem idxc3v10_ix2 (n : Fin 100000) (j : Fin 2) : idx_main_call3_v10 (ix2 n j) = ix2 n 0 :=
  funext fun a => Fin.ext (by match a with | ⟨0, _⟩ => rfl | ⟨1, _⟩ => rfl)
theorem idxc3v8_ix2 (n : Fin 100000) : idx_main_call3_v8 (ix2 n 0) = ix1 n :=
  funext fun a => Fin.ext (by match a with | ⟨0, _⟩ => rfl)
theorem idxc3v7_ix1 (n : Fin 100000) (k : Fin 2) : idx_main_call3_v7 (ix1 n) k = ix2 n k :=
  funext fun a => Fin.ext (by match a with | ⟨0, _⟩ => rfl | ⟨1, _⟩ => rfl)

/-- Dropping the second axis of a [100000, 2] array leaves its rows. -/
theorem reduces_d1 : S100000x2.Reduces [1] S100000 := by decide

/-- Row `n` with the column `k` put back is the entry (n, k). -/
theorem lift_d1 (n : Fin 100000) (k : Fin 2) : reduces_d1.lift (ix1 n) k = ix2 n k :=
  funext fun c => Fin.ext (by match c with | ⟨0, _⟩ => rfl | ⟨1, _⟩ => rfl)

/-- The maximum over a row, folded from -∞, is the row's `rowMax`. -/
theorem rowmax_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) :
    val_main_call3_v0 (F := Ideal) x0 x1 x2 x3 x4 x5 x6 x7 (ix1 n)
      = Cert.Sage.rowMax (fun j' : Fin 2 => val_main_v66 (F := Ideal) x0 x1 x2 x3 x4 x5 x6 x7 (ix2 n j')) := by
  unfold val_main_call3_v0
  rw [Host.reduce_eq_fold_single FloatOps.maximumf _ _ Gen.reducesTo_S100000x2_S100000_d1 reduces_d1 Gen.h_S_]
  have hf : (val_main_v66 (F := Ideal) x0 x1 x2 x3 x4 x5 x6 x7 ∘ reduces_d1.lift (ix1 n)) = fun j' : Fin 2 => val_main_v66 (F := Ideal) x0 x1 x2 x3 x4 x5 x6 x7 (ix2 n j') :=
    funext fun k => congrArg (val_main_v66 (F := Ideal) x0 x1 x2 x3 x4 x5 x6 x7) (lift_d1 n k)
  rw [hf]
  rfl

/-- A fold of `max` from -∞ is at least -∞, so one more `max` with -∞ changes nothing. -/
theorem negInf_max_rowMax {O : Nat} (z : Fin O → EReal) :
    max Cert.Sage.negInf (Cert.Sage.rowMax z) = Cert.Sage.rowMax z :=
  max_eq_right ((Finset.le_fold_max _).2 (Or.inl le_rfl))

/-- The row shifted by its maximum. -/
theorem shift_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (j : Fin 2) :
    val_main_call3_v5 (F := Ideal) x0 x1 x2 x3 x4 x5 x6 x7 (ix2 n j)
      = val_main_v66 (F := Ideal) x0 x1 x2 x3 x4 x5 x6 x7 (ix2 n j) - Cert.Sage.rowMax (fun j' : Fin 2 => val_main_v66 (F := Ideal) x0 x1 x2 x3 x4 x5 x6 x7 (ix2 n j')) := by
  rw [val_main_call3_v5_apply, val_main_call3_v4_apply, val_main_call3_v3_apply, val_main_call3_v2_apply,
    val_main_call3_v1_apply, val_main_call3_cst_0_apply, idxc3v4_ix2, idxc3v3_ix2, rowmax_apply]
  rw [show FloatOps.maximumf (F := Ideal) (FloatOps.ofBits (F := Ideal) .f32 0xFF800000#32)
      (Cert.Sage.rowMax (fun j' : Fin 2 => val_main_v66 (F := Ideal) x0 x1 x2 x3 x4 x5 x6 x7 (ix2 n j'))) = Cert.Sage.rowMax (fun j' : Fin 2 => val_main_v66 (F := Ideal) x0 x1 x2 x3 x4 x5 x6 x7 (ix2 n j'))
    from negInf_max_rowMax _]
  rfl

/-- One term of the sum of exponentials. -/
theorem exp_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (k : Fin 2) :
    val_main_call3_v6 (F := Ideal) x0 x1 x2 x3 x4 x5 x6 x7 (idx_main_call3_v7 (ix1 n) k)
      = Ideal.exp (val_main_v66 (F := Ideal) x0 x1 x2 x3 x4 x5 x6 x7 (ix2 n k) - Cert.Sage.rowMax (fun j' : Fin 2 => val_main_v66 (F := Ideal) x0 x1 x2 x3 x4 x5 x6 x7 (ix2 n j'))) := by
  rw [idxc3v7_ix1, val_main_call3_v6_apply, shift_apply, Ideal.hostUnary_exp_def]

/-- The logarithm of the sum of the exponentials of the shifted row. -/
theorem lse_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (j : Fin 2) :
    val_main_call3_v10 (F := Ideal) x0 x1 x2 x3 x4 x5 x6 x7 (ix2 n j)
      = Ideal.log (∑ k : Fin 2, Ideal.exp (val_main_v66 (F := Ideal) x0 x1 x2 x3 x4 x5 x6 x7 (ix2 n k) - Cert.Sage.rowMax (fun j' : Fin 2 => val_main_v66 (F := Ideal) x0 x1 x2 x3 x4 x5 x6 x7 (ix2 n j')))) := by
  rw [val_main_call3_v10_apply, val_main_call3_v9_apply, val_main_call3_v8_apply, val_main_call3_v7_apply,
    val_main_call3_cst_1_apply, idxc3v10_ix2, idxc3v8_ix2]
  simp only [exp_apply]
  rw [show FloatOps.ofBits (F := Ideal) .f32 0x00000000#32 = 0 from Ideal.ofBits_zero_f32, zero_add, Ideal.hostUnary_log_def]

/-- The result at (n, j) is the logarithm of the softmax of the normalised row. -/
theorem logsoftmax_apply (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) (n : Fin 100000) (j : Fin 2) :
    val_main_v67 (F := Ideal) x0 x1 x2 x3 x4 x5 x6 x7 (ix2 n j)
      = Cert.Sage.logSoftmaxRow (fun j' : Fin 2 => val_main_v66 (F := Ideal) x0 x1 x2 x3 x4 x5 x6 x7 (ix2 n j')) j := by
  rw [val_main_v67_apply, shift_apply, lse_apply]
  rfl

/-! ### The layer -/

/-- The result (the reference's `%67`, after the log-softmax) is `Sage.layer2` of its second scatter-added neighbour sums `%45`, its
    second neighbour counts `%49`, the first layer's output `%35`, its transposed weights `%54` and `%59` and its bias row `%56`. -/
theorem layer2 (x0 : (⟨S100000x128, .f32⟩ : BufTy).Contents (Elt Ideal)) (x1 : (⟨S2x600000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) :
    val_main_v67 (F := Ideal) x0 x1 x2 x3 x4 x5 x6 x7
      = Cert.Sage.layer2 (R := 100000) (D := 256) (O := 2) (val_main_v45 (F := Ideal) x0 x1 x2 x3 x4) (val_main_v49 (F := Ideal) x1) (val_main_v35 (F := Ideal) x0 x1 x2 x3 x4)
          (val_main_v54 (F := Ideal) x5) (val_main_v59 (F := Ideal) x7) (val_main_v56 (F := Ideal) x6) := by
  funext i
  obtain ⟨n, j, rfl⟩ : ∃ (n : Fin 100000) (j : Fin 2), i = ix2 n j := ⟨i 0, i 1, eq_ix2 i⟩
  rw [Cert.Sage.layer2_ix2, logsoftmax_apply]
  unfold Cert.Sage.layer2Row
  have h1 : (fun j' : Fin 2 => val_main_v61 (F := Ideal) x0 x1 x2 x3 x4 x5 x6 x7 (ix2 n j'))
      = Cert.Sage.linRow (Cert.Sage.meanRow (Cert.Sage.rowOf (R := 100000) (D := 256) (val_main_v45 (F := Ideal) x0 x1 x2 x3 x4) n) (val_main_v49 (F := Ideal) x1 (ix2 n 0)))
          (Cert.Sage.rowOf (R := 100000) (D := 256) (val_main_v35 (F := Ideal) x0 x1 x2 x3 x4) n)
          (Cert.Sage.mat (D := 256) (O := 2) (val_main_v54 (F := Ideal) x5)) (Cert.Sage.mat (D := 256) (O := 2) (val_main_v59 (F := Ideal) x7))
          (Cert.Sage.rowOf (R := 1) (D := 2) (val_main_v56 (F := Ideal) x6) 0) := by
    rw [← Cert.Sage.linRowRef_eq]
    exact funext fun j' => lin_apply x0 x1 x2 x3 x4 x5 x6 x7 n j'
  have h2 : (fun j' : Fin 2 => val_main_v66 (F := Ideal) x0 x1 x2 x3 x4 x5 x6 x7 (ix2 n j'))
      = Cert.Sage.normRow (Cert.Sage.linRow (Cert.Sage.meanRow (Cert.Sage.rowOf (R := 100000) (D := 256) (val_main_v45 (F := Ideal) x0 x1 x2 x3 x4) n) (val_main_v49 (F := Ideal) x1 (ix2 n 0)))
          (Cert.Sage.rowOf (R := 100000) (D := 256) (val_main_v35 (F := Ideal) x0 x1 x2 x3 x4) n)
          (Cert.Sage.mat (D := 256) (O := 2) (val_main_v54 (F := Ideal) x5)) (Cert.Sage.mat (D := 256) (O := 2) (val_main_v59 (F := Ideal) x7))
          (Cert.Sage.rowOf (R := 1) (D := 2) (val_main_v56 (F := Ideal) x6) 0)) := by
    rw [← h1]
    exact funext fun j' => norm_apply x0 x1 x2 x3 x4 x5 x6 x7 n j'
  rw [h2]

end Cert.ReferenceIdeal.Layer2

end
-- ==== Proof.KernelValue.lean ====
/-
  The kernel program's result as the reference's last stage of the same arguments.
  The first pallas_call leaves the first SAGE layer of the arrays it is entered with; those are the reference's own
  neighbour sums, counts, transposed weights and bias row of the same arguments, so what it leaves is the reference's
  first-layer stage. The host operations between the calls gather and scatter-add THAT array with the same indices as
  the reference does, and the second pallas_call leaves the second layer of what they produce: the reference's result
  stage. Nothing here opens a gather or a scatter-add: both programs apply the same ones to equal arrays.
-/
import proofs.«176304_j60352880443979_1_alg».proof.Proof.HostK
import proofs.«176304_j60352880443979_1_alg».proof.Proof.Region0
import proofs.«176304_j60352880443979_1_alg».proof.Proof.Region1
import proofs.«176304_j60352880443979_1_alg».proof.Proof.RefLayer1
import proofs.«176304_j60352880443979_1_alg».proof.Proof.RefLayer2
import proofs.«176304_j60352880443979_1_alg».proof.Proof.RunK

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-- What the first region leaves in its result array: the reference's first layer of the same arguments. -/
theorem first_layer (c : Dev nD) :
    W2 m ρ c (Proc.devRef .tc main_v21)
      = Cert.ReferenceIdeal.ReadP.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  refine (Cert.KernelIdeal.Region0.final (V1 m ρ) c).trans ?_
  rw [Cert.ReferenceIdeal.Layer1.layer1]
  have e17 : V1 m ρ c main_v17 = Cert.ReferenceIdeal.ReadP.val_main_v13 (F := Ideal) (m ((c : Thread nD τ).loc main_arg0)) (m ((c : Thread nD τ).loc main_arg1)) := Cert.KernelIdeal.Host.W1_v17 m ρ c
  have e7 : V1 m ρ c main_v7 = Cert.ReferenceIdeal.ReadP.val_main_v17 (F := Ideal) (m ((c : Thread nD τ).loc main_arg1)) := Cert.KernelIdeal.Host.W1_v7 m ρ c
  have e0 : V1 m ρ c main_arg0 = m ((c : Thread nD τ).loc main_arg0) := Cert.KernelIdeal.Host.W1_arg0 m ρ c
  have e18 : V1 m ρ c main_v18 = Cert.ReferenceIdeal.ReadP.val_main_v22 (F := Ideal) (m ((c : Thread nD τ).loc main_arg2)) := Cert.KernelIdeal.Host.W1_v18 m ρ c
  have e19 : V1 m ρ c main_v19 = Cert.ReferenceIdeal.ReadP.val_main_v27 (F := Ideal) (m ((c : Thread nD τ).loc main_arg4)) := Cert.KernelIdeal.Host.W1_v19 m ρ c
  have e20 : V1 m ρ c main_v20 = Cert.ReferenceIdeal.ReadP.val_main_v24 (F := Ideal) (m ((c : Thread nD τ).loc main_arg3)) :=
    (Cert.KernelIdeal.Host.W1_v20 m ρ c).trans (Cert.KernelIdeal.Host.bias1_row _)
  rw [e17, e7, e0, e18, e19, e20]

/-- What the last boundary holds at the result buffer: the reference's result of the same arguments. -/
theorem result (c : Dev nD) :
    W4 m ρ c (Proc.devRef .tc main_v35)
      = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  refine (Cert.KernelIdeal.Region1.final (V3 m ρ) c).trans ?_
  rw [Cert.ReferenceIdeal.Layer2.layer2]
  have e31 : V3 m ρ c main_v31 = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    Cert.KernelIdeal.Host.W3_v31_of m ρ c _ _ (Cert.KernelIdeal.Host.W2_v1 m ρ c) (Cert.KernelIdeal.Host.W2_v3 m ρ c) (first_layer m ρ c)
  have e7 : V3 m ρ c main_v7 = Cert.ReferenceIdeal.ReadP.val_main_v49 (F := Ideal) (m ((c : Thread nD τ).loc main_arg1)) :=
    (Cert.KernelIdeal.Host.W3_v7 m ρ c).trans (Cert.KernelIdeal.Host.W2_v7 m ρ c)
  have e21 : V3 m ρ c main_v21 = Cert.ReferenceIdeal.ReadP.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    (Cert.KernelIdeal.Host.W3_v21 m ρ c).trans (first_layer m ρ c)
  have e32 : V3 m ρ c main_v32 = Cert.ReferenceIdeal.ReadP.val_main_v54 (F := Ideal) (m ((c : Thread nD τ).loc main_arg5)) := Cert.KernelIdeal.Host.W3_v32 m ρ c
  have e33 : V3 m ρ c main_v33 = Cert.ReferenceIdeal.ReadP.val_main_v59 (F := Ideal) (m ((c : Thread nD τ).loc main_arg7)) := Cert.KernelIdeal.Host.W3_v33 m ρ c
  have e34 : V3 m ρ c main_v34 = Cert.ReferenceIdeal.ReadP.val_main_v56 (F := Ideal) (m ((c : Thread nD τ).loc main_arg6)) :=
    (Cert.KernelIdeal.Host.W3_v34 m ρ c).trans (Cert.KernelIdeal.Host.bias2_row _)
  rw [e31, e7, e21, e32, e33, e34]

/-- The kernel program's run with the result named: the reference's result stage of the launch arguments. -/
theorem run : θ_run defs (onTc (τ := τ) (main (F := Ideal))) ⟨m, fun _ => 0, ρ⟩ (fun r => ∀ c : Dev nD,
      r.2.mem ((c.tc : Thread nD τ).loc main_v35) = Cert.ReferenceIdeal.ReadP.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.GenP.run_result (F := Ideal) m ρ)

end Cert.KernelIdeal.Whole

end
-- ==== Proof.RefRun.lean ====
/-
  The reference program's run, read over its stages. The generated run ends with the result array at ONE composed
  term of the eight arguments; that term is the last stage of the stage-by-stage reading (each stage a definition
  over the stages before it), by unfolding both. So every weakly fair execution of the reference ends with the result
  array at the last stage of the arguments' launch contents, the arguments unchanged.
-/
import proofs.«176304_j60352880443979_1_alg».proof.Proof.RefRunP
import proofs.«176304_j60352880443979_1_alg».proof.Proof.RefReadP

noncomputable section

open Idealize.ShloMosaic Idealize.ShloMosaic.TcCoe Idealize.SL.Sem Idealize.ShloMosaic.StableHlo

namespace Cert.ReferenceIdeal.RunStages

open Cert.ReferenceIdeal Cert.ReferenceIdeal.Gen Cert.ReferenceIdeal.ReadP

variable {F : FTy → Type} [FloatOps F]

set_option maxRecDepth 1000000 in
set_option maxHeartbeats 8000000 in
/-- The run's composed term is the last stage. -/
theorem res_eq_stage (m : (ℓ : Loc nD τ sig) → Buf (Elt F) ℓ) (c : Dev nD) :
    Cert.ReferenceIdeal.ValueP.res_main_v67 m c = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v67; rfl

/-- Every weakly fair execution of the reference terminates, nothing faulting, with the result array at the last
    stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq_stage m c), (h c).2⟩) (Cert.ReferenceIdeal.ValueP.run m ρ)

end Cert.ReferenceIdeal.RunStages

end
-- ==== Proof.lean ====
/-
  A two-layer GraphSAGE network with mean aggregation (100000 nodes, 600000 edges): the kernel program computes
  each layer's dense part — the mean over the neighbours, the two linear maps and the bias, the L2 normalisation, and
  the ReLU or the log-softmax — in a pallas_call over blocks of 2000 nodes, with the gathers and scatter-adds of the
  aggregation as host operations around the two calls; the reference computes the same network with host operations
  only. Over the extended reals the two agree on every input:
  · each pallas_call leaves, in its result array, the layer's row function of the rows of the arrays it reads
    (a grid point works on its own 2000 rows and the fifty blocks tile the array);
  · the arrays the first call reads are the reference's own neighbour sums, counts, transposed weights and bias row of
    the same arguments; the host operations between the calls gather and scatter-add the first call's result with the
    same indices as the reference's; so the second call reads the reference's arrays too;
  · the reference's operations, read one at a time at an index, are the same row functions. The one difference in
    the arithmetic is the place of the bias in a sum of three terms, and addition of extended reals is commutative
    and associative; the reference's extra maximum with -∞ before its softmax changes nothing.
  No step uses that the inputs are finite. The ideal pass rewrote nothing in the kernel, so `preserves` asks nothing.
-/
import proofs.«176304_j60352880443979_1_alg».proof.Defs
import proofs.«176304_j60352880443979_1_alg».proof.Proof.Gen.Kernel
import proofs.«176304_j60352880443979_1_alg».proof.Proof.Gen.Kernel.Skeleton
import proofs.«176304_j60352880443979_1_alg».proof.Proof.Gen.Kernel.Launch
import proofs.«176304_j60352880443979_1_alg».proof.Proof.Gen.Kernel.Points
import proofs.«176304_j60352880443979_1_alg».proof.Proof.Gen.Kernel.Frame
import proofs.«176304_j60352880443979_1_alg».proof.Proof.Gen.KernelIdeal
import proofs.«176304_j60352880443979_1_alg».proof.Proof.Gen.KernelIdeal.Skeleton
import proofs.«176304_j60352880443979_1_alg».proof.Proof.Gen.KernelIdeal.Launch
import proofs.«176304_j60352880443979_1_alg».proof.Proof.Gen.KernelIdeal.Points
import proofs.«176304_j60352880443979_1_alg».proof.Proof.Gen.KernelIdeal.Frame
import proofs.«176304_j60352880443979_1_alg».proof.Proof.Gen.ReferenceIdeal
import proofs.«176304_j60352880443979_1_alg».proof.Proof.Gen.Pre_finite_inputs
import proofs.«176304_j60352880443979_1_alg».proof.Proof.KernelValue
import proofs.«176304_j60352880443979_1_alg».proof.Proof.RefRun
import Idealize.ShloMosaic.Adequacy
import Idealize.ShloMosaic.Init

noncomputable section

namespace Cert.Proof

open Idealize.ShloMosaic Idealize.SL.Sem

/-- The kernel program as printed runs and leaves its arguments as launched. -/
theorem frame_kernel [hKernel : Cert.Kernel.Facts] [hPre : Cert.Pre_finite_inputs.Facts] : Cert.frame_Kernel :=
  fun m ρ _ => Cert.Kernel.Gen.frame m ρ

/-- So does its idealization. -/
theorem frame_kernelIdeal [hKernelIdeal : Cert.KernelIdeal.Facts] [hPre : Cert.Pre_finite_inputs.Facts] : Cert.frame_KernelIdeal :=
  fun m ρ _ => Cert.KernelIdeal.Gen.frame m ρ

/-- The reference has no kernel: its frame is its run with the result dropped. -/
theorem frame_referenceIdeal [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.RunStages.run (F := Ideal) m ρ)

/-- From memories agreeing on the eight arguments both programs end with the result array at the reference's last
    stage of those arguments: the kernel program by its two layers (`Cert.KernelIdeal.Whole.run`), the reference by
    its run over stages, the arguments' agreement rewritten. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RunStages.run (F := Ideal) m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
